-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x512 : Shape := ⟨2, ![131072, 512]⟩
abbrev S64 : Shape := ⟨1, ![64]⟩
abbrev S_ : Shape := ⟨0, ![]⟩

class Facts : Prop where
  bcast_S_S131072x512 : S_.BroadcastsInDim S131072x512 (![] : Fin 0 → Fin S131072x512.rank)
  reducesTo_S131072x512_S_d0_1 : S131072x512.ReducesTo [0, 1] S_
  h_S_ : 0 < S_.numel
  bcast_S_S64 : S_.BroadcastsInDim S64 (![] : Fin 0 → Fin S64.rank)
  reducesTo_S64_S_d0 : S64.ReducesTo [0] S_

variable [Facts]

def fn {F : FTy → Type} [FloatOps F] (main_arg0 : FVec F S131072x512 .f32) (main_arg1 : IVec S64 32) : IVec S_ 1 :=
  let main_v0 : FVec F S131072x512 .f32 := Host.absf main_arg0
  let main_cst : FVec F S_ .f32 := constant S_ .f32 0x7F800000#32
  let main_v1 : FVec F S131072x512 .f32 := broadcastInDim S131072x512 ![] bcast_S_S131072x512 main_cst
  let main_v2 : IVec S131072x512 1 := cmpf .olt main_v0 main_v1
  let main_c : IVec S_ 1 := constantI S_ 1 1#1
  let main_v3 : IVec S_ 1 := (fun x v => Host.reduce IntOp.andi x v reducesTo_S131072x512_S_d0_1 h_S_) main_v2 main_c
  let main_c_0 : IVec S_ 32 := constantI S_ 32 0#32
  let main_v4 : IVec S64 32 := broadcastInDim S64 ![] bcast_S_S64 main_c_0
  let main_v5 : IVec S64 1 := cmpi .sge main_arg1 main_v4
  let main_c_1 : IVec S_ 1 := constantI S_ 1 1#1
  let main_v6 : IVec S_ 1 := (fun x v => Host.reduce IntOp.andi x v reducesTo_S64_S_d0 h_S_) main_v5 main_c_1
  let main_v7 : IVec S_ 1 := andi main_v3 main_v6
  let main_c_2 : IVec S_ 32 := constantI S_ 32 131072#32
  let main_v8 : IVec S64 32 := broadcastInDim S64 ![] bcast_S_S64 main_c_2
  let main_v9 : IVec S64 1 := cmpi .sle main_arg1 main_v8
  let main_c_3 : IVec S_ 1 := constantI S_ 1 1#1
  let main_v10 : IVec S_ 1 := (fun x v => Host.reduce IntOp.andi x v reducesTo_S64_S_d0 h_S_) main_v9 main_c_3
  let main_v11 : IVec S_ 1 := andi main_v7 main_v10
  let main_c_4 : IVec S_ 32 := constantI S_ 32 0#32
  let main_v12 : IVec S_ 32 := (fun x v => Host.reduce IntOp.addi x v reducesTo_S64_S_d0 h_S_) main_arg1 main_c_4
  let main_c_5 : IVec S_ 32 := constantI S_ 32 131072#32
  let main_v13 : IVec S_ 1 := cmpi .eq main_v12 main_c_5
  let main_v14 : IVec S_ 1 := andi main_v11 main_v13
  main_v14
-- ==== Kernel.lean ====
abbrev S131072x512 : Shape := ⟨2, ![131072, 512]⟩
abbrev S64 : Shape := ⟨1, ![64]⟩
abbrev S_ : Shape := ⟨0, ![]⟩
abbrev S1 : Shape := ⟨1, ![1]⟩
abbrev S65 : Shape := ⟨1, ![65]⟩
abbrev S1x64 : Shape := ⟨2, ![1, 64]⟩
abbrev S2x64x512 : Shape := ⟨3, ![2, 64, 512]⟩
abbrev S8192x512 : Shape := ⟨2, ![8192, 512]⟩
abbrev S1x64x512 : Shape := ⟨3, ![1, 64, 512]⟩
abbrev S64x512 : Shape := ⟨2, ![64, 512]⟩
abbrev S2048x512 : Shape := ⟨2, ![2048, 512]⟩
abbrev S2048x64 : Shape := ⟨2, ![2048, 64]⟩
abbrev S64x1 : Shape := ⟨2, ![64, 1]⟩

abbrev nBuf : Space → Nat
  | .hbm => 19
  | .vmem => 6
  | .smem => 0
  | _ => 0

abbrev bufTy : (tb : Table) → Fin (tcTables nBuf tb) → BufTy
  | .hbm, ⟨0, _⟩ => ⟨S131072x512, .f32⟩
  | .hbm, ⟨1, _⟩ => ⟨S64, .i32⟩
  | .hbm, ⟨2, _⟩ => ⟨S_, .i32⟩
  | .hbm, ⟨3, _⟩ => ⟨S1, .i32⟩
  | .hbm, ⟨4, _⟩ => ⟨S_, .i32⟩
  | .hbm, ⟨5, _⟩ => ⟨S_, .i32⟩
  | .hbm, ⟨6, _⟩ => ⟨S64, .i32⟩
  | .hbm, ⟨7, _⟩ => ⟨S65, .i32⟩
  | .hbm, ⟨8, _⟩ => ⟨S64, .i32⟩
  | .hbm, ⟨9, _⟩ => ⟨S1x64, .i32⟩
  | .hbm, ⟨10, _⟩ => ⟨S64, .i32⟩
  | .hbm, ⟨11, _⟩ => ⟨S1x64, .i32⟩
  | .hbm, ⟨12, _⟩ => ⟨S2x64x512, .f32⟩
  | .hbm, ⟨13, _⟩ => ⟨S_, .f32⟩
  | .hbm, ⟨14, _⟩ => ⟨S64x512, .f32⟩
  | .hbm, ⟨15, _⟩ => ⟨S64, .f32⟩
  | .hbm, ⟨16, _⟩ => ⟨S64x1, .f32⟩
  | .hbm, ⟨17, _⟩ => ⟨S64x512, .f32⟩
  | .hbm, ⟨18, _⟩ => ⟨S64x512, .f32⟩
  | .local _ .vmem, ⟨0, _⟩ => ⟨S1x64, .i32⟩
  | .local _ .vmem, ⟨1, _⟩ => ⟨S1x64, .i32⟩
  | .local _ .vmem, ⟨2, _⟩ => ⟨S8192x512, .f32⟩
  | .local _ .vmem, ⟨3, _⟩ => ⟨S8192x512, .f32⟩
  | .local _ .vmem, ⟨4, _⟩ => ⟨S1x64x512, .f32⟩
  | .local _ .vmem, ⟨5, _⟩ => ⟨S1x64x512, .f32⟩
  | _, _ => ⟨S131072x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_call0_call0_c : Ref sig .tc := ⟨.hbm, 4, rfl⟩
abbrev main_call0_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x64 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x64 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S8192x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S_S1 : S_.BroadcastsInDim S1 (![] : Fin 0 → Fin S1.rank)
  bcast_S_S_ : S_.BroadcastsInDim S_ (![] : Fin 0 → Fin S_.rank)
  reduceWindows_S64_S64_w64s1p63_0 : S64.ReduceWindows (![64] : Fin 1 → Nat) ![1] ![63] ![0] S64
  h_S_ : 0 < S_.numel
  concatenates_S1_S64_S65_d0 : Shape.Concatenates [S1, S64] S65 0
  slices_S65_S64_0 : S65.Slices ![0] S64
  shapeCasts_S64_S1x64 : S64.ShapeCasts S1x64
  slices_S65_S64_1 : S65.Slices ![1] S64
  inb_S1x64x512_S1x64x512_0_0_0 : ∀ a, (![0, 0, 0] : Fin 3 → Nat) a + S1x64x512.size a ≤ S1x64x512.size a
  h_S1x64x512 : 0 < S1x64x512.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S8192x512_S2048x512_0_0 : ∀ a, (![0, 0] : Fin 2 → Nat) a + S2048x512.size a ≤ S8192x512.size a
  h_S2048x512 : 0 < S2048x512.numel
  bitsLt_bf16_f32 : FTy.bits .bf16 < FTy.bits .f32
  iota_S2048x64_d0_w32 : S2048x64.Iotas .tc 32 [0]
  broadcasts_S1x64_S2048x64 : S1x64.Broadcasts S2048x64
  natLt_1_32 : 1 < 32
  inb_S8192x512_S2048x512_2048_0 : ∀ a, (![2048, 0] : Fin 2 → Nat) a + S2048x512.size a ≤ S8192x512.size a
  inb_S8192x512_S2048x512_4096_0 : ∀ a, (![4096, 0] : Fin 2 → Nat) a + S2048x512.size a ≤ S8192x512.size a
  inb_S8192x512_S2048x512_6144_0 : ∀ a, (![6144, 0] : Fin 2 → Nat) a + S2048x512.size a ≤ S8192x512.size a
  shapeCasts_S1x64x512_S1x64x512 : S1x64x512.ShapeCasts S1x64x512
  shapeCasts_S64x512_S1x64x512 : S64x512.ShapeCasts S1x64x512
  reducesTo_S2x64x512_S64x512_d0 : S2x64x512.ReducesTo [0] S64x512
  bcast_S64_S64x1_0 : S64.BroadcastsInDim S64x1 (![0] : Fin 1 → Fin S64x1.rank)
  bcast_S64x1_S64x512_0_1 : S64x1.BroadcastsInDim S64x512 (![0, 1] : Fin 2 → Fin S64x512.rank)
  dot_S2048x64_S2048x512_S64x512_0_0_1_1_n_n_wf : DotDims.WF S2048x64 S2048x512 S64x512 [0] [0] [1] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x64.size a ≤ S1x64.size a
  hwx0_0 : ∀ i : grid0.Coords, EltTy.bits .i32 = 32 ∨ (Rect.block (s := S1x64) S1x64.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x64.size a ≤ S1x64.size a
  hwx0_1 : ∀ i : grid0.Coords, EltTy.bits .i32 = 32 ∨ (Rect.block (s := S1x64) S1x64.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x512.size a ≤ S131072x512.size a
  hwx0_2 : ∀ i : grid0.Coords, EltTy.bits .f32 = 32 ∨ (Rect.block (s := S131072x512) S8192x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x512.size a ≤ S2x64x512.size a
  hwx0_3 : ∀ i : grid0.Coords, EltTy.bits .f32 = 32 ∨ (Rect.block (s := S2x64x512) S1x64x512.size (cc0_transform_3 i) (hinb0_3 i)).WholeWords (EltTy.packing .f32)

variable [Facts₀]

def dot_S2048x64_S2048x512_S64x512_0_0_1_1_n_n : DotDims S2048x64 S2048x512 S64x512 where
  lhsContracting := [0]
  rhsContracting := [0]
  lhsNonContracting := [1]
  rhsNonContracting := [1]
  lhsBatch := []
  rhsBatch := []
  wf := dot_S2048x64_S2048x512_S64x512_0_0_1_1_n_n_wf

abbrev win0_0 : Pipeline.Window sig grid0 :=
  Pipeline.Window.ofSpec (Memref.whole main_v4) S1x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S8192x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x64x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S131072x512 : Shape := ⟨2, ![131072, 512]⟩
abbrev S64 : Shape := ⟨1, ![64]⟩
abbrev S1 : Shape := ⟨1, ![1]⟩
abbrev S63 : Shape := ⟨1, ![63]⟩
abbrev S_ : Shape := ⟨0, ![]⟩
abbrev S131072 : Shape := ⟨1, ![131072]⟩
abbrev S64x1 : Shape := ⟨2, ![64, 1]⟩
abbrev S131072x1 : Shape := ⟨2, ![131072, 1]⟩
abbrev S1x1 : Shape := ⟨2, ![1, 1]⟩
abbrev S64x512 : Shape := ⟨2, ![64, 512]⟩

abbrev nBuf : Space → Nat
  | .hbm => 62
  | .vmem => 0
  | .smem => 0
  | _ => 0

abbrev bufTy : (tb : Table) → Fin (tcTables nBuf tb) → BufTy
  | .hbm, ⟨0, _⟩ => ⟨S131072x512, .f32⟩
  | .hbm, ⟨1, _⟩ => ⟨S64, .i32⟩
  | .hbm, ⟨2, _⟩ => ⟨S64, .i32⟩
  | .hbm, ⟨3, _⟩ => ⟨S1, .i32⟩
  | .hbm, ⟨4, _⟩ => ⟨S63, .i32⟩
  | .hbm, ⟨5, _⟩ => ⟨S64, .i32⟩
  | .hbm, ⟨6, _⟩ => ⟨S_, .i32⟩
  | .hbm, ⟨7, _⟩ => ⟨S1, .i32⟩
  | .hbm, ⟨8, _⟩ => ⟨S_, .i32⟩
  | .hbm, ⟨9, _⟩ => ⟨S64, .i32⟩
  | .hbm, ⟨10, _⟩ => ⟨S_, .i32⟩
  | .hbm, ⟨11, _⟩ => ⟨S_, .i32⟩
  | .hbm, ⟨12, _⟩ => ⟨S64, .i32⟩
  | .hbm, ⟨13, _⟩ => ⟨S_, .i32⟩
  | .hbm, ⟨14, _⟩ => ⟨S131072, .i32⟩
  | .hbm, ⟨15, _⟩ => ⟨S_, .i32⟩
  | .hbm, ⟨16, _⟩ => ⟨S64, .i32⟩
  | .hbm, ⟨17, _⟩ => ⟨S64, .i1⟩
  | .hbm, ⟨18, _⟩ => ⟨S_, .i32⟩
  | .hbm, ⟨19, _⟩ => ⟨S64, .i32⟩
  | .hbm, ⟨20, _⟩ => ⟨S64, .i32⟩
  | .hbm, ⟨21, _⟩ => ⟨S64, .i32⟩
  | .hbm, ⟨22, _⟩ => ⟨S64x1, .i32⟩
  | .hbm, ⟨23, _⟩ => ⟨S_, .i32⟩
  | .hbm, ⟨24, _⟩ => ⟨S64, .i32⟩
  | .hbm, ⟨25, _⟩ => ⟨S131072, .i32⟩
  | .hbm, ⟨26, _⟩ => ⟨S_, .i32⟩
  | .hbm, ⟨27, _⟩ => ⟨S_, .i32⟩
  | .hbm, ⟨28, _⟩ => ⟨S131072, .i32⟩
  | .hbm, ⟨29, _⟩ => ⟨S_, .i32⟩
  | .hbm, ⟨30, _⟩ => ⟨S131072, .i32⟩
  | .hbm, ⟨31, _⟩ => ⟨S131072, .i32⟩
  | .hbm, ⟨32, _⟩ => ⟨S_, .i32⟩
  | .hbm, ⟨33, _⟩ => ⟨S131072, .i32⟩
  | .hbm, ⟨34, _⟩ => ⟨S131072, .i1⟩
  | .hbm, ⟨35, _⟩ => ⟨S_, .i32⟩
  | .hbm, ⟨36, _⟩ => ⟨S131072, .i32⟩
  | .hbm, ⟨37, _⟩ => ⟨S131072, .i32⟩
  | .hbm, ⟨38, _⟩ => ⟨S131072, .i32⟩
  | .hbm, ⟨39, _⟩ => ⟨S131072x1, .i32⟩
  | .hbm, ⟨40, _⟩ => ⟨S1, .i32⟩
  | .hbm, ⟨41, _⟩ => ⟨S_, .i32⟩
  | .hbm, ⟨42, _⟩ => ⟨S131072x1, .i32⟩
  | .hbm, ⟨43, _⟩ => ⟨S131072x1, .i1⟩
  | .hbm, ⟨44, _⟩ => ⟨S1x1, .i32⟩
  | .hbm, ⟨45, _⟩ => ⟨S131072x1, .i32⟩
  | .hbm, ⟨46, _⟩ => ⟨S131072x1, .i1⟩
  | .hbm, ⟨47, _⟩ => ⟨S131072x1, .i1⟩
  | .hbm, ⟨48, _⟩ => ⟨S_, .i1⟩
  | .hbm, ⟨49, _⟩ => ⟨S131072, .i1⟩
  | .hbm, ⟨50, _⟩ => ⟨S131072, .i32⟩
  | .hbm, ⟨51, _⟩ => ⟨S_, .i32⟩
  | .hbm, ⟨52, _⟩ => ⟨S131072, .i32⟩
  | .hbm, ⟨53, _⟩ => ⟨S131072, .i32⟩
  | .hbm, ⟨54, _⟩ => ⟨S_, .f32⟩
  | .hbm, ⟨55, _⟩ => ⟨S64x512, .f32⟩
  | .hbm, ⟨56, _⟩ => ⟨S131072x1, .i32⟩
  | .hbm, ⟨57, _⟩ => ⟨S64x512, .f32⟩
  | .hbm, ⟨58, _⟩ => ⟨S64x1, .i32⟩
  | .hbm, ⟨59, _⟩ => ⟨S64x1, .f32⟩
  | .hbm, ⟨60, _⟩ => ⟨S64x512, .f32⟩
  | .hbm, ⟨61, _⟩ => ⟨S64x512, .f32⟩
  | _, _ => ⟨S131072x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_v1 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_call1_call0_c : Ref sig .tc := ⟨.hbm, 10, rfl⟩
abbrev main_call1_call0_v0 : Ref sig .tc := ⟨.hbm, 11, rfl⟩
abbrev main_v4 : Ref sig .tc := ⟨.hbm, 12, rfl⟩
abbrev main_c_1 : Ref sig .tc := ⟨.hbm, 13, rfl⟩
abbrev main_v5 : Ref sig .tc := ⟨.hbm, 14, rfl⟩
abbrev main_c_2 : Ref sig .tc := ⟨.hbm, 15, rfl⟩
abbrev main_v6 : Ref sig .tc := ⟨.hbm, 16, rfl⟩
abbrev main_v7 : Ref sig .tc := ⟨.hbm, 17, rfl⟩
abbrev main_c_3 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_4 : Ref sig .tc := ⟨.hbm, 23, rfl⟩
abbrev main_v12 : Ref sig .tc := ⟨.hbm, 24, rfl⟩
abbrev main_v13 : Ref sig .tc := ⟨.hbm, 25, rfl⟩
abbrev main_call2_call0_c : Ref sig .tc := ⟨.hbm, 26, rfl⟩
abbrev main_call2_call0_v0 : Ref sig .tc := ⟨.hbm, 27, rfl⟩
abbrev main_v14 : Ref sig .tc := ⟨.hbm, 28, rfl⟩
abbrev main_c_5 : Ref sig .tc := ⟨.hbm, 29, rfl⟩
abbrev main_v15 : Ref sig .tc := ⟨.hbm, 30, rfl⟩
abbrev main_v16 : Ref sig .tc := ⟨.hbm, 31, rfl⟩
abbrev main_call3_c : Ref sig .tc := ⟨.hbm, 32, rfl⟩
abbrev main_call3_v0 : Ref sig .tc := ⟨.hbm, 33, rfl⟩
abbrev main_call3_v1 : Ref sig .tc := ⟨.hbm, 34, rfl⟩
abbrev main_call3_c_0 : Ref sig .tc := ⟨.hbm, 35, rfl⟩
abbrev main_call3_v2 : Ref sig .tc := ⟨.hbm, 36, rfl⟩
abbrev main_call3_v3 : Ref sig .tc := ⟨.hbm, 37, rfl⟩
abbrev main_call3_v4 : Ref sig .tc := ⟨.hbm, 38, rfl⟩
abbrev main_call3_v5 : Ref sig .tc := ⟨.hbm, 39, rfl⟩
abbrev main_call3_c_1 : Ref sig .tc := ⟨.hbm, 40, rfl⟩
abbrev main_call3_c_2 : Ref sig .tc := ⟨.hbm, 41, rfl⟩
abbrev main_call3_v6 : Ref sig .tc := ⟨.hbm, 42, rfl⟩
abbrev main_call3_v7 : Ref sig .tc := ⟨.hbm, 43, rfl⟩
abbrev main_call3_v8 : Ref sig .tc := ⟨.hbm, 44, rfl⟩
abbrev main_call3_v9 : Ref sig .tc := ⟨.hbm, 45, rfl⟩
abbrev main_call3_v10 : Ref sig .tc := ⟨.hbm, 46, rfl⟩
abbrev main_call3_v11 : Ref sig .tc := ⟨.hbm, 47, rfl⟩
abbrev main_call3_c_3 : Ref sig .tc := ⟨.hbm, 48, rfl⟩
abbrev main_call3_v12 : Ref sig .tc := ⟨.hbm, 49, rfl⟩
abbrev main_call3_v13 : Ref sig .tc := ⟨.hbm, 50, rfl⟩
abbrev main_call3_c_4 : Ref sig .tc := ⟨.hbm, 51, rfl⟩
abbrev main_call3_v14 : Ref sig .tc := ⟨.hbm, 52, rfl⟩
abbrev main_v17 : Ref sig .tc := ⟨.hbm, 53, rfl⟩
abbrev main_cst : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩

abbrev nD : Nat := 1
abbrev τ : Topo := Topo.v7x

variable {F : FTy → Type} [FloatOps F]

class Facts₀ : Prop where
  slices_S64_S1_63 : S64.Slices ![63] S1
  slices_S64_S63_0 : S64.Slices ![0] S63
  concatenates_S1_S63_S64_d0 : Shape.Concatenates [S1, S63] S64 0
  bcast_S_S1 : S_.BroadcastsInDim S1 (![] : Fin 0 → Fin S1.rank)
  bcast_S_S_ : S_.BroadcastsInDim S_ (![] : Fin 0 → Fin S_.rank)
  reduceWindows_S64_S64_w64s1p63_0 : S64.ReduceWindows (![64] : Fin 1 → Nat) ![1] ![63] ![0] S64
  h_S_ : 0 < S_.numel
  bcast_S_S131072 : S_.BroadcastsInDim S131072 (![] : Fin 0 → Fin S131072.rank)
  bcast_S_S64 : S_.BroadcastsInDim S64 (![] : Fin 0 → Fin S64.rank)
  bcast_S64_S64x1_0 : S64.BroadcastsInDim S64x1 (![0] : Fin 1 → Fin S64x1.rank)
  reduceWindows_S131072_S131072_w131072s1p131071_0 : S131072.ReduceWindows (![131072] : Fin 1 → Nat) ![1] ![131071] ![0] S131072
  bcast_S131072_S131072x1_0 : S131072.BroadcastsInDim S131072x1 (![0] : Fin 1 → Fin S131072x1.rank)
  bcast_S_S131072x1 : S_.BroadcastsInDim S131072x1 (![] : Fin 0 → Fin S131072x1.rank)
  bcast_S1_S1x1_1 : S1.BroadcastsInDim S1x1 (![1] : Fin 1 → Fin S1x1.rank)
  bcast_S1x1_S131072x1_0_1 : S1x1.BroadcastsInDim S131072x1 (![0, 1] : Fin 2 → Fin S131072x1.rank)
  reducesTo_S131072x1_S131072_d1 : S131072x1.ReducesTo [1] S131072
  bcast_S_S64x512 : S_.BroadcastsInDim S64x512 (![] : Fin 0 → Fin S64x512.rank)
  bcast_S64x1_S64x512_0_1 : S64x1.BroadcastsInDim S64x512 (![0, 1] : Fin 2 → Fin S64x512.rank)
  scatter_S64_S1_S__n_0_0_0_wf : ScatterDims.WF S64 S1 S_ [] [0] [0] 0
  scatter_S131072_S64x1_S64_n_0_0_1_wf : ScatterDims.WF S131072 S64x1 S64 [] [0] [0] 1
  gather_S64_S131072x1_S131072_n_0_n_n_0_1_1_wf : GatherDims.WF S64 S131072x1 S131072 [] [0] [] [0] [] 1 ![1]
  scatter_S64x512_S131072x1_S131072x512_1_0_0_1_wf : ScatterDims.WF S64x512 S131072x1 S131072x512 [1] [0] [0] 1

variable [Facts₀]

def scatter_S64_S1_S__n_0_0_0 : ScatterDims S64 S1 S_ where
  updateWindowDims := []
  insertedWindowDims := [0]
  scatterDimsToOperandDims := [0]
  indexVectorDim := 0
  wf := scatter_S64_S1_S__n_0_0_0_wf
def scatter_S131072_S64x1_S64_n_0_0_1 : ScatterDims S131072 S64x1 S64 where
  updateWindowDims := []
  insertedWindowDims := [0]
  scatterDimsToOperandDims := [0]
  indexVectorDim := 1
  wf := scatter_S131072_S64x1_S64_n_0_0_1_wf
def gather_S64_S131072x1_S131072_n_0_n_n_0_1_1 : GatherDims S64 S131072x1 S131072 where
  offsetDims := []
  collapsedSliceDims := [0]
  operandBatchingDims := []
  startIndicesBatchingDims := []
  startIndexMap := [0]
  indexVectorDim := 1
  sliceSizes := ![1]
  wf := gather_S64_S131072x1_S131072_n_0_n_n_0_1_1_wf
def scatter_S64x512_S131072x1_S131072x512_1_0_0_1 : ScatterDims S64x512 S131072x1 S131072x512 where
  updateWindowDims := [1]
  insertedWindowDims := [0]
  scatterDimsToOperandDims := [0]
  indexVectorDim := 1
  wf := scatter_S64x512_S131072x1_S131072x512_1_0_0_1_wf

class Facts : Prop extends Facts₀ where

variable [Facts]
-- ==== Proof.Spec.lean ====
/-
  The mathematics of the segmented mean, stated once, over no program.

  64 bags partition the 131072 rows of a [131072, 512] matrix into consecutive runs: bag `b` has `cnt b` rows, so it
  owns the rows `t` with `off b ≤ t < off (b+1)`, where `off k` is the number of rows of the bags before `k`. The result
  at `(b, d)` is the sum of column `d` over the rows bag `b` owns, divided by the bag's count read as a real number.
  The counts are 32-bit words; they are admissible (`Ok`) when each is at most 131072 as an unsigned word and they add
  up to exactly 131072 — then no prefix sum wraps, and the runs tile the rows.
-/
import Idealize.ShloMosaic.PureOps.Ideal
import Idealize.ShloMosaic.Lib.ValueIdx
import Mathlib.Data.BitVec

noncomputable section

open scoped BigOperators

namespace Cert.Seg

open Idealize.ShloMosaic Idealize.ShloMosaic.ValueIdx

/-- The samples' shape, the result's shape, the counts' shape. -/
abbrev SX : Shape := ⟨2, ![131072, 512]⟩
abbrev SO : Shape := ⟨2, ![64, 512]⟩
abbrev SC : Shape := ⟨1, ![64]⟩

/-- The number of rows of the bags before `k` (all 64 bags when `k ≥ 64`), as a natural number. -/
def off (cnt : SC.Idx → BitVec 32) (k : ℕ) : ℕ := ∑ i : Fin 64, if i.val < k then (cnt (ix1 i)).toNat else 0

/-- The same prefix sum taken in 32-bit words (it wraps when the counts are large). -/
def boff (cnt : SC.Idx → BitVec 32) (k : ℕ) : BitVec 32 := ∑ i : Fin 64, if i.val < k then cnt (ix1 i) else 0

/-- Admissible counts: each at most 131072, all together exactly 131072. -/
structure Ok (cnt : SC.Idx → BitVec 32) : Prop where
  le : ∀ i : Fin 64, (cnt (ix1 i)).toNat ≤ 131072
  total : off cnt 64 = 131072

/-- Row `t` belongs to bag `b`. -/
def owns (cnt : SC.Idx → BitVec 32) (b t : ℕ) : Prop := off cnt b ≤ t ∧ t < off cnt (b + 1)

instance (cnt : SC.Idx → BitVec 32) (b t : ℕ) : Decidable (owns cnt b t) := by unfold owns; infer_instance

/-- The sum of column `j 1` over the rows bag `j 0` owns. -/
def bagSum (x : SX.Idx → EReal) (cnt : SC.Idx → BitVec 32) : SO.Idx → EReal :=
  fun j => ∑ t : Fin 131072, if owns cnt (j 0).val t.val then x (ix2 t (j 1)) else 0

/-- The bag's count as a real number (the word read signed). -/
def den (cnt : SC.Idx → BitVec 32) : SO.Idx → EReal := fun j => (((cnt (ix1 (j 0))).toInt : ℝ) : EReal)

/-- The segmented mean. -/
def G (x : SX.Idx → EReal) (cnt : SC.Idx → BitVec 32) : SO.Idx → EReal :=
  fun j => Ideal.div (bagSum x cnt j) (den cnt j)

/-- The membership weight the kernel computes from two boundary words: one when `lo ≤ g < hi` as signed words. -/
def hot (lo hi g : BitVec 32) : EReal := if lo.sle g ∧ g.slt hi then 1 else 0

end Cert.Seg

end
-- ==== Proof.Pre.lean ====
/-
  The precondition read: besides the samples' finiteness it says every count is between 0 and 131072 as a signed word and
  the counts' 32-bit sum is 131072; bounded so, the sum does not wrap, and the counts are admissible.
-/
import proofs.«412226_j44435731644653_3_alg».proof.Proof.Gen.Pre_finite_inputs
import proofs.«412226_j44435731644653_3_alg».proof.Proof.Spec
import Idealize.ShloMosaic.Lib.StableHlo.Predicate
import Idealize.ShloMosaic.Lib.ReduceAll

noncomputable section

open scoped BigOperators

namespace Cert.Seg

open Idealize.ShloMosaic Idealize.ShloMosaic.ValueIdx

/-- The scalar shape has exactly one index. -/
private instance : Subsingleton Cert.Pre_finite_inputs.S_.Idx := ⟨fun a b => funext fun d => d.elim0⟩

/-- A word that is at least 0 and at most 131072 as a signed word has an unsigned value of at most 131072: were its top
    bit set it would read negative. -/
private theorem word_bounds {a : BitVec 32} (h0 : IntOp.cmpi .sge a 0#32 = 1#1) (h1 : IntOp.cmpi .sle a 131072#32 = 1#1) :
    a.toNat ≤ 131072 := by
  unfold IntOp.cmpi at h0 h1
  rw [StableHlo.Predicate.ofBool_eq_one_iff] at h0 h1
  simp only [BitVec.sle, decide_eq_true_eq] at h0 h1
  have z : (0#32 : BitVec 32).toInt = 0 := by decide
  have c : (131072#32 : BitVec 32).toInt = 131072 := by decide
  rw [z] at h0
  rw [c] at h1
  have hlt := a.isLt
  by_cases hc : 2 * a.toNat < 2 ^ 32
  · have e : a.toInt = (a.toNat : ℤ) := by rw [BitVec.toInt_eq_toNat_cond, if_pos hc]
    omega
  · have e : a.toInt = (a.toNat : ℤ) - ((2 ^ 32 : ℕ) : ℤ) := by rw [BitVec.toInt_eq_toNat_cond, if_neg hc]
    omega

/-- Over a one-point target every index is sent to the one point: the filter keeps everything. -/
private theorem filter_subsingleton_eq {α γ : Type*} [Fintype α] [Subsingleton γ] (g : α → γ) (c : γ)
    [DecidablePred fun i => g i = c] : (Finset.univ.filter fun i => g i = c) = Finset.univ :=
  Finset.filter_true_of_mem (fun _ _ => Subsingleton.elim _ _)

/-- The 64 positions of the counts, as indices. -/
private def e64 : Fin 64 ≃ SC.Idx where
  toFun := ix1
  invFun := fun j => j 0
  left_inv := fun _ => rfl
  right_inv := fun j => (eq_ix1 j).symm

theorem ok_of_pre {F : FTy → Type} [FloatOps F] (x : FVec F Cert.Pre_finite_inputs.S131072x512 .f32) (cnt : IVec Cert.Pre_finite_inputs.S64 32)
    (h : Cert.Pre_finite_inputs.fn (F := F) x cnt = fun _ => 1#1) : Ok cnt := by
  have h0 := congrFun h ValueIdx.ix0
  dsimp only [Cert.Pre_finite_inputs.fn, andi] at h0
  obtain ⟨h1, hsum⟩ := IntOp.andi_eq_one.1 h0
  obtain ⟨h2, hle⟩ := IntOp.andi_eq_one.1 h1
  obtain ⟨_, hge⟩ := IntOp.andi_eq_one.1 h2
  -- every count lies between 0 and 131072 as a signed word, hence is at most 131072 as a number
  have hb : ∀ i : Fin 64, (cnt (ix1 i)).toNat ≤ 131072 := by
    intro i
    have g := Host.reduce_andi_all _ _ _ _ _ hge (ix1 i)
    have l := Host.reduce_andi_all _ _ _ _ _ hle (ix1 i)
    exact word_bounds g l
  -- the word sum of the counts is 131072
  have hs := StableHlo.Predicate.cmpi_eq_iff.1 hsum
  rw [Host.reduce_eq_fold, filter_subsingleton_eq] at hs
  have hs' : Finset.fold IntOp.addi 0#32 cnt Finset.univ = 131072#32 := hs
  -- the sum of the counts' values, over the indices and over the 64 positions
  have hre : (∑ j : Cert.Pre_finite_inputs.S64.Idx, (cnt j).toNat) = ∑ i : Fin 64, (cnt (ix1 i)).toNat :=
    (Fintype.sum_equiv e64 (fun i => (cnt (ix1 i)).toNat) (fun j => (cnt j).toNat) (fun _ => rfl)).symm
  -- it is at most 64 · 131072, below 2 ^ 32, so the word sum does not wrap and is the sum of the values
  have hbd : (∑ i : Fin 64, (cnt (ix1 i)).toNat) ≤ 64 * 131072 := by
    calc (∑ i : Fin 64, (cnt (ix1 i)).toNat) ≤ ∑ _i : Fin 64, 131072 := Finset.sum_le_sum (fun i _ => hb i)
      _ = 64 * 131072 := by simp
  have hnat := StableHlo.Predicate.toNat_fold_addi Finset.univ cnt (by rw [hre]; omega)
  rw [hs', hre] at hnat
  refine ⟨hb, ?_⟩
  -- the prefix sum at 64 takes every one of the 64 counts
  have hoff : off cnt 64 = ∑ i : Fin 64, (cnt (ix1 i)).toNat := by
    unfold off
    exact Finset.sum_congr rfl (fun i _ => if_pos i.isLt)
  rw [hoff, ← hnat]
  rfl

end Cert.Seg

end
-- ==== Proof.KerVal.lean ====
/-
  The kernel program's result as ONE pure term of its two argument arrays, around the array its pallas_call leaves.
  Before the call the host computes each bag's first row (`loW`) and the row after its last (`hiW`): the inclusive prefix
  sum of the counts with a zero put in front, read from place 0 and from place 1. The call leaves two partial sums per bag
  and column, one for each half of the rows (`partials`: a row counts for a bag when its number lies between the bag's two
  boundary words); after it the host adds the two halves and divides by the bag's count.
-/
import proofs.«412226_j44435731644653_3_alg».proof.Proof.Gen.KernelIdeal
import proofs.«412226_j44435731644653_3_alg».proof.Proof.Spec

noncomputable section

open scoped BigOperators

namespace Cert.KernelIdeal.Hand

open Idealize.ShloMosaic Idealize.ShloMosaic.ValueIdx Cert.KernelIdeal Cert.KernelIdeal.Facts₀

variable {F : FTy → Type} [FloatOps F]

/-- The inclusive prefix sum of the counts with a zero in front: 65 boundary words. -/
def bounds (cnt : IVec S64 32) : IVec S65 32 :=
  concatenate S65 0 [⟨S1, broadcastInDim S1 ![] bcast_S_S1 (constantI S_ 32 0#32)⟩,
    ⟨S64, Host.reduceWindow IntOp.addi ![64] ![1] ![63] ![0] cnt (broadcastInDim S_ ![] bcast_S_S_ (constantI S_ 32 0#32))
      reduceWindows_S64_S64_w64s1p63_0 h_S_⟩] concatenates_S1_S64_S65_d0

/-- Each bag's first row, as a [1, 64] array of words. -/
def loW (cnt : IVec S64 32) : IVec S1x64 32 :=
  shapeCast S1x64 (extractStridedSlice S64 ![0] (bounds cnt) slices_S65_S64_0) shapeCasts_S64_S1x64

/-- The row after each bag's last, as a [1, 64] array of words. -/
def hiW (cnt : IVec S64 32) : IVec S1x64 32 :=
  shapeCast S1x64 (extractStridedSlice S64 ![1] (bounds cnt) slices_S65_S64_1) shapeCasts_S64_S1x64

/-- What the pallas_call leaves at `(h, b, d)`: over the rows `t` of half `h` (rows `65536 h … 65536 h + 65535`), the sum
    of the membership weight of row `t` in bag `b` times the sample at `(t, d)`. -/
def partials (x : FVec Ideal S131072x512 .f32) (lo hi : IVec S1x64 32) : FVec Ideal S2x64x512 .f32 :=
  fun j => ∑ t : Fin 131072, if t.val / 65536 = (j 0).val then
    Cert.Seg.hot (lo (ix2 (0 : Fin 1) (j 1))) (hi (ix2 (0 : Fin 1) (j 1))) (BitVec.ofNat 32 t.val) * x (ix2 t (j 2)) else 0

/-- The first row of the tile that grid point `i = (core, step)` reads, as the word the body computes: `(8 core + step) · 8192`. -/
def baseWord (i : grid0.Coords) : BitVec 32 :=
  Scalar.muli (Scalar.addi (Scalar.muli (BitVec.ofNat 32 (i 0).val) 8#32) (BitVec.ofNat 32 (i 1).val)) 8192#32

/-- One grid point's contribution at `(0, b, d)`: over the 8192 rows `r` of its tile `x2`, whose first row is number `base`,
    the membership weight of row `base + r` in bag `b` times the tile's entry `(r, d)`. -/
def tileSum (lo hi : IVec S1x64 32) (x2 : FVec Ideal S8192x512 .f32) (base : BitVec 32) : FVec Ideal S1x64x512 .f32 :=
  fun j => ∑ r : Fin 8192,
    Cert.Seg.hot (lo (ix2 (0 : Fin 1) (j 1))) (hi (ix2 (0 : Fin 1) (j 1))) (base + BitVec.ofNat 32 r.val) * x2 (ix2 r (j 2))

/-- The host operations after the call: the two halves added, divided by the counts. -/
def tail (p : FVec F S2x64x512 .f32) (cnt : IVec S64 32) : FVec F S64x512 .f32 :=
  Host.divf (Host.reduceAdd p (constant S_ .f32 0x00000000#32) reducesTo_S2x64x512_S64x512_d0 h_S_)
    (broadcastInDim S64x512 ![0, 1] bcast_S64x1_S64x512_0_1
      (broadcastInDim S64x1 ![0] bcast_S64_S64x1_0 (sitofp .f32 cnt)))

/-- The kernel program's result. -/
def kerVal (x : FVec Ideal S131072x512 .f32) (cnt : IVec S64 32) : FVec Ideal S64x512 .f32 :=
  tail (partials x (loW cnt) (hiW cnt)) cnt

end Cert.KernelIdeal.Hand

end
-- ==== Proof.KerPieces.lean ====
/-
  What one run of the kernel body leaves in the output block, at the ideal instance: at the first step of a core (the
  block is reset first) the tile's contribution alone, at a later step the block's previous contents plus the tile's
  contribution. The body adds four products, one per chunk of 2048 rows, of the chunk's membership weights (transposed)
  with the chunk's samples; together they are the sum over the tile's 8192 rows.
-/
import proofs.«412226_j44435731644653_3_alg».proof.Proof.Gen.KernelIdeal.Frame
import proofs.«412226_j44435731644653_3_alg».proof.Proof.KerVal
import Idealize.ShloMosaic.Lib.Pipeline.Value
import Idealize.ShloMosaic.Lib.ValueLayout
import Idealize.ShloMosaic.PureOps.Ideal.Laws
import Mathlib.Algebra.BigOperators.Fin

noncomputable section

open scoped BigOperators

namespace Cert.KernelIdeal.Hand

open Idealize.ShloMosaic Idealize.ShloMosaic.ValueIdx Cert.KernelIdeal Cert.KernelIdeal.Facts₀

namespace Pieces

open Idealize.ShloMosaic.Tactic

section Pieces
variable {F : FTy → Type} [FloatOps F]

/-- The four chunks of 2048 rows of the tile, as the body loads them. -/
abbrev chunk0 (x2 : Vec F S8192x512 .f32) : Vec F S2048x512 .f32 :=
  View.ld x2 (Rect.unit (s := S8192x512) ![0, 0] S2048x512.size Gen.inb_S8192x512_S2048x512_0_0)
abbrev chunk1 (x2 : Vec F S8192x512 .f32) : Vec F S2048x512 .f32 :=
  View.ld x2 (Rect.unit (s := S8192x512) ![2048, 0] S2048x512.size Gen.inb_S8192x512_S2048x512_2048_0)
abbrev chunk2 (x2 : Vec F S8192x512 .f32) : Vec F S2048x512 .f32 :=
  View.ld x2 (Rect.unit (s := S8192x512) ![4096, 0] S2048x512.size Gen.inb_S8192x512_S2048x512_4096_0)
abbrev chunk3 (x2 : Vec F S8192x512 .f32) : Vec F S2048x512 .f32 :=
  View.ld x2 (Rect.unit (s := S8192x512) ![6144, 0] S2048x512.size Gen.inb_S8192x512_S2048x512_6144_0)

/-- The body's stored value, over the block's contents `prev` when the last store is made. -/
abbrev bodyVal (i : grid0.Coords) (x0 x1 : Vec F S1x64 .i32) (x2 : Vec F S8192x512 .f32) (prev : Vec F S1x64x512 .f32) :
    FVec F S1x64x512 .f32 :=
  Gen.k0_pay1 (baseWord i) (Gen.k0_pay3 x0) (Gen.k0_pay4 x1) (Gen.k0_pay5 i x0 x1 (chunk0 x2)) (Gen.k0_pay6 (chunk1 x2))
    (Gen.k0_pay7 i x0 x1) (chunk2 x2) (chunk3 x2) prev

/-- The offsets of a whole-block access are all zero. -/
theorem hz3 : (![0, 0, 0] : Fin 3 → ℕ) = fun _ => 0 := by funext a; fin_cases a <;> rfl
theorem hz2 : (![0, 0] : Fin 2 → ℕ) = fun _ => 0 := by funext a; fin_cases a <;> rfl

/-- At a core's first step the block holds the body's stored value over the zero block the reset left. -/
theorem pieceA (c : Dev nD) (i : grid0.Coords) (arg2 : Memref sig .tc .vmem S1x64 .i32) (harg2 : arg2.IsWhole)
    (arg3 : Memref sig .tc .vmem S1x64 .i32) (harg3 : arg3.IsWhole) (arg4 : Memref sig .tc .vmem S8192x512 .f32) (harg4 : arg4.IsWhole)
    (arg5 : Memref sig .tc .vmem S1x64x512 .f32) (harg5 : arg5.IsWhole) (hc0 : Gen.cond0_0 i)
    (x0 : Vec F S1x64 .i32) (x1 : Vec F S1x64 .i32) (x2 : Vec F S8192x512 .f32) :
    Gen.out0_A_3 (F := F) c i arg2 harg2 arg3 harg3 arg4 harg4 arg5 harg5 hc0 x0 x1 x2 = bodyVal i x0 x1 x2 (Gen.k0_pay2 (F := F)) := by
  unfold Gen.out0_A_3
  rw [View.read_writes_eq_canon _ _ _ (Gen.cover0_A_3 c i arg2 harg2 arg3 harg3 arg4 harg4 arg5 harg5 hc0 x0 x1 x2)]
  unfold Gen.kernelRun0_A
  dsimp only
  sl_unfold_words
  rw [View.canon_cons_unit_zero (S := S1x64x512) hz3, View.readCov_unit_zero (S := S1x64x512) _ hz3]
  simp only [View.readAt_eq_ld, harg2.read_unread, harg3.read_unread, harg4.read_unread, View.ld_unit_zero (S := S1x64) hz2]
  rfl

/-- At a later step the block holds the body's stored value over the block's previous contents. -/
theorem pieceB (c : Dev nD) (i : grid0.Coords) (arg2 : Memref sig .tc .vmem S1x64 .i32) (harg2 : arg2.IsWhole)
    (arg3 : Memref sig .tc .vmem S1x64 .i32) (harg3 : arg3.IsWhole) (arg4 : Memref sig .tc .vmem S8192x512 .f32) (harg4 : arg4.IsWhole)
    (arg5 : Memref sig .tc .vmem S1x64x512 .f32) (harg5 : arg5.IsWhole) (hc0 : ¬Gen.cond0_0 i)
    (x0 : Vec F S1x64 .i32) (x1 : Vec F S1x64 .i32) (x2 : Vec F S8192x512 .f32) (xo3 : Vec F S1x64x512 .f32) :
    Gen.out0_B_3 (F := F) c i arg2 harg2 arg3 harg3 arg4 harg4 arg5 harg5 hc0 x0 x1 x2 xo3 = bodyVal i x0 x1 x2 xo3 := by
  unfold Gen.out0_B_3
  rw [View.read_writes_eq_canon _ _ _ (Gen.cover0_B_3 c i arg2 harg2 arg3 harg3 arg4 harg4 arg5 harg5 hc0 x0 x1 x2 xo3)]
  unfold Gen.kernelRun0_B
  dsimp only
  sl_unfold_words
  rw [View.canon_unit_zero (S := S1x64x512) hz3]
  simp only [View.readAt_eq_ld, harg2.read_unread, harg3.read_unread, harg4.read_unread, harg5.read_unread, View.ld_unit_zero (S := S1x64) hz2, View.ld_unit_zero (S := S1x64x512) hz3]
  rfl

end Pieces

section Value

/-- A converted membership bit is the membership weight: one when `lo ≤ g < hi` as signed words, else zero. -/
theorem weight_eq (lo hi g : BitVec 32) :
    (FloatOps.sitofp (F := Ideal) .f32 ((IntOp.andi (IntOp.cmpi .sge g lo) (IntOp.cmpi .slt g hi)).setWidth 32) : EReal)
      = Cert.Seg.hot lo hi g := by
  unfold Cert.Seg.hot IntOp.cmpi IntOp.andi
  show (((BitVec.setWidth 32 (BitVec.ofBool (lo.sle g) &&& BitVec.ofBool (g.slt hi))).toInt : ℝ) : EReal) = _
  cases h1 : lo.sle g <;> cases h2 : g.slt hi <;> simp

/-- The products contract axis 0 of both operands: at output index `j` and contraction position `k` the left operand is
    read at `(k, j 0)` and the right one at `(k, j 1)` — the four coordinates, one lemma each. -/
theorem lhs_dot_0 (j : S64x512.Idx) (k : dot_S2048x64_S2048x512_S64x512_0_0_1_1_n_n.contr.Idx) :
    (dot_S2048x64_S2048x512_S64x512_0_0_1_1_n_n.lhsIdx j k 0).val = (k ⟨0, by decide⟩).val :=
  dot_S2048x64_S2048x512_S64x512_0_0_1_1_n_n.lhsIdx_val_of_single rfl j k

theorem rhs_dot_0 (j : S64x512.Idx) (k : dot_S2048x64_S2048x512_S64x512_0_0_1_1_n_n.contr.Idx) :
    (dot_S2048x64_S2048x512_S64x512_0_0_1_1_n_n.rhsIdx j k 0).val = (k ⟨0, by decide⟩).val :=
  dot_S2048x64_S2048x512_S64x512_0_0_1_1_n_n.rhsIdx_val_of_single rfl j k

theorem lhs_dot_1 (j : S64x512.Idx) (k : dot_S2048x64_S2048x512_S64x512_0_0_1_1_n_n.contr.Idx) :
    (dot_S2048x64_S2048x512_S64x512_0_0_1_1_n_n.lhsIdx j k 1).val = (j 0).val := by
  unfold DotDims.lhsIdx
  rw [dif_neg (show ¬(1 : Fin S2048x64.rank) ∈ dot_S2048x64_S2048x512_S64x512_0_0_1_1_n_n.lhsBatch by decide),
    dif_pos (show (1 : Fin S2048x64.rank) ∈ dot_S2048x64_S2048x512_S64x512_0_0_1_1_n_n.lhsNonContracting by decide)]
  rfl

theorem rhs_dot_1 (j : S64x512.Idx) (k : dot_S2048x64_S2048x512_S64x512_0_0_1_1_n_n.contr.Idx) :
    (dot_S2048x64_S2048x512_S64x512_0_0_1_1_n_n.rhsIdx j k 1).val = (j 1).val := by
  unfold DotDims.rhsIdx
  rw [dif_neg (show ¬(1 : Fin S2048x512.rank) ∈ dot_S2048x64_S2048x512_S64x512_0_0_1_1_n_n.rhsBatch by decide),
    dif_pos (show (1 : Fin S2048x512.rank) ∈ dot_S2048x64_S2048x512_S64x512_0_0_1_1_n_n.rhsNonContracting by decide)]
  rfl

/-- One product of the body read at `(b, d)`: the sum over the chunk's 2048 rows. -/
theorem chunk_apply (A : FVec Ideal S2048x64 .bf16) (B : FVec Ideal S2048x512 .bf16) (b : Fin 64) (d : Fin 512) :
    matmul dot_S2048x64_S2048x512_S64x512_0_0_1_1_n_n none A B (constant S64x512 .f32 0x00000000#32) (ix2 b d)
      = ∑ r : Fin 2048, A (ix2 r b) * B (ix2 r d) := by
  show FloatOps.matmul dot_S2048x64_S2048x512_S64x512_0_0_1_1_n_n none A B (constant S64x512 .f32 0x00000000#32) (ix2 b d) = _
  rw [Ideal.matmul_constant_zero_apply,
    ← Equiv.sum_comp (contrEquiv1 dot_S2048x64_S2048x512_S64x512_0_0_1_1_n_n 2048 rfl rfl).symm]
  refine Finset.sum_congr rfl fun r _ => ?_
  have c := contrEquiv1_symm_val dot_S2048x64_S2048x512_S64x512_0_0_1_1_n_n 2048 rfl rfl r
  have l : dot_S2048x64_S2048x512_S64x512_0_0_1_1_n_n.lhsIdx (ix2 b d)
      ((contrEquiv1 dot_S2048x64_S2048x512_S64x512_0_0_1_1_n_n 2048 rfl rfl).symm r) = ix2 r b := by
    funext ax; apply Fin.ext
    match ax with
    | ⟨0, _⟩ => exact (lhs_dot_0 _ _).trans c
    | ⟨1, _⟩ => exact lhs_dot_1 _ _
  have rr : dot_S2048x64_S2048x512_S64x512_0_0_1_1_n_n.rhsIdx (ix2 b d)
      ((contrEquiv1 dot_S2048x64_S2048x512_S64x512_0_0_1_1_n_n 2048 rfl rfl).symm r) = ix2 r d := by
    funext ax; apply Fin.ext
    match ax with
    | ⟨0, _⟩ => exact (rhs_dot_0 _ _).trans c
    | ⟨1, _⟩ => exact rhs_dot_1 _ _
  rw [l, rr]

/-- A sum over 8192 consecutive numbers is the sum of the four sums over 2048 of them. -/
theorem sum_four_chunks {M : Type*} [AddCommMonoid M] (g : ℕ → M) :
    ∑ r : Fin 8192, g r.val = ∑ r : Fin 2048, g (0 + r.val) + ∑ r : Fin 2048, g (2048 + r.val)
      + ∑ r : Fin 2048, g (4096 + r.val) + ∑ r : Fin 2048, g (6144 + r.val) := by
  rw [Fin.sum_univ_eq_sum_range g 8192, Fin.sum_univ_eq_sum_range (fun n => g (0 + n)) 2048,
    Fin.sum_univ_eq_sum_range (fun n => g (2048 + n)) 2048, Fin.sum_univ_eq_sum_range (fun n => g (4096 + n)) 2048,
    Fin.sum_univ_eq_sum_range (fun n => g (6144 + n)) 2048,
    show 8192 = 2048 + 2048 + 2048 + 2048 from rfl, Finset.sum_range_add, Finset.sum_range_add, Finset.sum_range_add]
  simp only [Nat.zero_add, Nat.add_assoc, Nat.reduceAdd]

/-- A chunk of 2048 rows of the tile, loaded from row `o` on, read at `(r, d)`: the tile at `(o + r, d)`. -/
theorem ld_rows_apply (x2 : Vec Ideal S8192x512 .f32) (o : ℕ) (inb : ∀ a, (![o, 0] : Fin 2 → ℕ) a + S2048x512.size a ≤ S8192x512.size a)
    (r : Fin 2048) (d : Fin 512) (h : o + r.val < 8192) :
    View.ld x2 (Rect.unit (s := S8192x512) ![o, 0] S2048x512.size inb) (ix2 r d) = x2 (ix2 ⟨o + r.val, h⟩ d) :=
  congrArg x2 (Shape.idx_ext₂ (show o + 1 * r.val = o + r.val by omega) (show 0 + 1 * d.val = d.val by omega))

/-- The membership weights of the 2048 rows numbered from `g0` on, as the body computes them: row numbers by adding the
    row's place in the chunk to `g0`, the two boundary rows spread over the rows, the two comparisons, their conjunction
    widened and converted. -/
def wts (g0 : BitVec 32) (lo hi : IVec S1x64 32) : FVec Ideal S2048x64 .bf16 :=
  truncf .bf16 (sitofp .f32 (extui 32 (andi
    (cmpi .sge (addi (broadcast S2048x64 g0) (iota .tc S2048x64 32 [0] iota_S2048x64_d0_w32)) (broadcastTo S2048x64 lo broadcasts_S1x64_S2048x64))
    (cmpi .slt (addi (broadcast S2048x64 g0) (iota .tc S2048x64 32 [0] iota_S2048x64_d0_w32)) (broadcastTo S2048x64 hi broadcasts_S1x64_S2048x64)))
    natLt_1_32)) bitsLt_bf16_f32

/-- The weight at `(r, b)` is the membership weight of row `g0 + r` in bag `b`. -/
theorem wts_apply (g0 : BitVec 32) (lo hi : IVec S1x64 32) (r : Fin 2048) (b : Fin 64) :
    wts g0 lo hi (ix2 r b) = Cert.Seg.hot (lo (ix2 (0 : Fin 1) b)) (hi (ix2 (0 : Fin 1) b)) (g0 + BitVec.ofNat 32 r.val) := by
  show (FloatOps.sitofp (F := Ideal) .f32 ((IntOp.andi
      (IntOp.cmpi .sge (IntOp.addi g0 (iota .tc S2048x64 32 [0] iota_S2048x64_d0_w32 (ix2 r b))) (broadcastTo S2048x64 lo broadcasts_S1x64_S2048x64 (ix2 r b)))
      (IntOp.cmpi .slt (IntOp.addi g0 (iota .tc S2048x64 32 [0] iota_S2048x64_d0_w32 (ix2 r b))) (broadcastTo S2048x64 hi broadcasts_S1x64_S2048x64 (ix2 r b)))).setWidth 32) : EReal) = _
  rw [iota_single_apply, broadcastTo_1b_ab_apply, broadcastTo_1b_ab_apply]
  exact weight_eq _ _ _

/-- The four products added up as the body adds them: into a zero [64, 512] array, chunk after chunk. -/
def acc4 (base : BitVec 32) (lo hi : IVec S1x64 32) (x2 : Vec Ideal S8192x512 .f32) : FVec Ideal S64x512 .f32 :=
  addf (addf (addf (addf (broadcast S64x512 (Scalar.ofBits (F := Ideal) .f32 0x00000000#32))
    (matmul dot_S2048x64_S2048x512_S64x512_0_0_1_1_n_n none (wts (base + 0#32) lo hi) (truncf .bf16 (chunk0 x2) bitsLt_bf16_f32) (constant S64x512 .f32 0x00000000#32)))
    (matmul dot_S2048x64_S2048x512_S64x512_0_0_1_1_n_n none (wts (base + 2048#32) lo hi) (truncf .bf16 (chunk1 x2) bitsLt_bf16_f32) (constant S64x512 .f32 0x00000000#32)))
    (matmul dot_S2048x64_S2048x512_S64x512_0_0_1_1_n_n none (wts (base + 4096#32) lo hi) (truncf .bf16 (chunk2 x2) bitsLt_bf16_f32) (constant S64x512 .f32 0x00000000#32)))
    (matmul dot_S2048x64_S2048x512_S64x512_0_0_1_1_n_n none (wts (base + 6144#32) lo hi) (truncf .bf16 (chunk3 x2) bitsLt_bf16_f32) (constant S64x512 .f32 0x00000000#32))

/-- The body's stored value is the block's contents plus those four products. -/
theorem bodyVal_eq (i : grid0.Coords) (x0 x1 : Vec Ideal S1x64 .i32) (x2 : Vec Ideal S8192x512 .f32) (prev : Vec Ideal S1x64x512 .f32) :
    bodyVal (F := Ideal) i x0 x1 x2 prev
      = addf (shapeCast S1x64x512 prev shapeCasts_S1x64x512_S1x64x512)
          (shapeCast S1x64x512 (acc4 (baseWord i) (Gen.k0_pay3 (F := Ideal) x0) (Gen.k0_pay4 (F := Ideal) x1) x2) shapeCasts_S64x512_S1x64x512) := rfl

/-- The four products together, read at `(b, d)`: the sum over the tile's 8192 rows. -/
theorem acc4_apply (base : BitVec 32) (lo hi : IVec S1x64 32) (x2 : Vec Ideal S8192x512 .f32) (b : Fin 64) (d : Fin 512) :
    acc4 base lo hi x2 (ix2 b d)
      = ∑ r : Fin 8192, Cert.Seg.hot (lo (ix2 (0 : Fin 1) b)) (hi (ix2 (0 : Fin 1) b)) (base + BitVec.ofNat 32 r.val) * x2 (ix2 r d) := by
  -- the summand as a function of the row's number
  let g : ℕ → EReal := fun n => if h : n < 8192 then
    Cert.Seg.hot (lo (ix2 (0 : Fin 1) b)) (hi (ix2 (0 : Fin 1) b)) (base + BitVec.ofNat 32 n) * x2 (ix2 ⟨n, h⟩ d) else 0
  have hg : ∀ (o : ℕ) (inb : ∀ a, (![o, 0] : Fin 2 → ℕ) a + S2048x512.size a ≤ S8192x512.size a) (ho : o + 2048 ≤ 8192) (r : Fin 2048),
      wts (base + BitVec.ofNat 32 o) lo hi (ix2 r b)
        * (truncf .bf16 (View.ld x2 (Rect.unit (s := S8192x512) ![o, 0] S2048x512.size inb)) bitsLt_bf16_f32 : FVec Ideal S2048x512 .bf16) (ix2 r d)
        = g (o + r.val) := by
    intro o inb ho r
    have h : o + r.val < 8192 := by have := r.isLt; omega
    rw [wts_apply, truncf_apply, ld_rows_apply x2 o inb r d h]
    show _ = dite _ _ _
    rw [dif_pos h, BitVec.add_assoc, ← BitVec.ofNat_add]
  unfold acc4
  rw [addf_apply, addf_apply, addf_apply, addf_apply, chunk_apply, chunk_apply, chunk_apply, chunk_apply, broadcast_apply]
  have s0 : (∑ r : Fin 2048, wts (base + 0#32) lo hi (ix2 r b) * (truncf .bf16 (chunk0 x2) bitsLt_bf16_f32 : FVec Ideal S2048x512 .bf16) (ix2 r d))
      = ∑ r : Fin 2048, g (0 + r.val) :=
    Finset.sum_congr rfl fun r _ => hg 0 Gen.inb_S8192x512_S2048x512_0_0 (by omega) r
  have s1 : (∑ r : Fin 2048, wts (base + 2048#32) lo hi (ix2 r b) * (truncf .bf16 (chunk1 x2) bitsLt_bf16_f32 : FVec Ideal S2048x512 .bf16) (ix2 r d))
      = ∑ r : Fin 2048, g (2048 + r.val) :=
    Finset.sum_congr rfl fun r _ => hg 2048 Gen.inb_S8192x512_S2048x512_2048_0 (by omega) r
  have s2 : (∑ r : Fin 2048, wts (base + 4096#32) lo hi (ix2 r b) * (truncf .bf16 (chunk2 x2) bitsLt_bf16_f32 : FVec Ideal S2048x512 .bf16) (ix2 r d))
      = ∑ r : Fin 2048, g (4096 + r.val) :=
    Finset.sum_congr rfl fun r _ => hg 4096 Gen.inb_S8192x512_S2048x512_4096_0 (by omega) r
  have s3 : (∑ r : Fin 2048, wts (base + 6144#32) lo hi (ix2 r b) * (truncf .bf16 (chunk3 x2) bitsLt_bf16_f32 : FVec Ideal S2048x512 .bf16) (ix2 r d))
      = ∑ r : Fin 2048, g (6144 + r.val) :=
    Finset.sum_congr rfl fun r _ => hg 6144 Gen.inb_S8192x512_S2048x512_6144_0 (by omega) r
  rw [s0, s1, s2, s3, show (FloatOps.ofBits (F := Ideal) .f32 0#32 : EReal) = 0 from Ideal.ofBits_zero_f32, zero_add,
    ← sum_four_chunks g]
  exact Finset.sum_congr rfl fun r _ => dif_pos r.isLt

/-- The body's stored value at `(u, b, d)`: the block's contents there plus the tile's contribution. -/
theorem bodyVal_apply (i : grid0.Coords) (x0 x1 : Vec Ideal S1x64 .i32) (x2 : Vec Ideal S8192x512 .f32) (prev : Vec Ideal S1x64x512 .f32)
    (u : Fin 1) (b : Fin 64) (d : Fin 512) :
    bodyVal (F := Ideal) i x0 x1 x2 prev (ix3 u b d) = prev (ix3 u b d) + tileSum x0 x1 x2 (baseWord i) (ix3 u b d) := by
  rw [bodyVal_eq, addf_apply, shapeCast_self, shapeCast_ab_1ab_apply, acc4_apply]
  show _ + ∑ r : Fin 8192, Cert.Seg.hot (Gen.k0_pay3 (F := Ideal) x0 (ix2 (0 : Fin 1) b)) (Gen.k0_pay4 (F := Ideal) x1 (ix2 (0 : Fin 1) b)) _ * _ = _
  rw [show Gen.k0_pay3 (F := Ideal) x0 = x0 from shapeCast_self _ _, show Gen.k0_pay4 (F := Ideal) x1 = x1 from shapeCast_self _ _]
  rfl

end Value

end Pieces

open Pieces

theorem out0_A_3_eq (c : Dev nD) (i : grid0.Coords) (arg2 : Memref sig .tc .vmem S1x64 .i32) (harg2 : arg2.IsWhole)
    (arg3 : Memref sig .tc .vmem S1x64 .i32) (harg3 : arg3.IsWhole) (arg4 : Memref sig .tc .vmem S8192x512 .f32) (harg4 : arg4.IsWhole)
    (arg5 : Memref sig .tc .vmem S1x64x512 .f32) (harg5 : arg5.IsWhole) (hc0 : Gen.cond0_0 i)
    (x0 : Vec Ideal S1x64 .i32) (x1 : Vec Ideal S1x64 .i32) (x2 : Vec Ideal S8192x512 .f32) :
    Gen.out0_A_3 (F := Ideal) c i arg2 harg2 arg3 harg3 arg4 harg4 arg5 harg5 hc0 x0 x1 x2 = tileSum x0 x1 x2 (baseWord i) := by
  refine (pieceA (F := Ideal) c i arg2 harg2 arg3 harg3 arg4 harg4 arg5 harg5 hc0 x0 x1 x2).trans ?_
  funext j
  obtain ⟨u, b, d, rfl⟩ : ∃ (u : Fin 1) (b : Fin 64) (d : Fin 512), j = ix3 u b d := ⟨j 0, j 1, j 2, eq_ix3 j⟩
  refine (bodyVal_apply i x0 x1 x2 (Gen.k0_pay2 (F := Ideal)) u b d).trans ?_
  -- the block was reset: its contents are zero
  show (FloatOps.ofBits (F := Ideal) .f32 0#32 : EReal) + _ = _
  rw [show (FloatOps.ofBits (F := Ideal) .f32 0#32 : EReal) = 0 from Ideal.ofBits_zero_f32, zero_add]

theorem out0_B_3_eq (c : Dev nD) (i : grid0.Coords) (arg2 : Memref sig .tc .vmem S1x64 .i32) (harg2 : arg2.IsWhole)
    (arg3 : Memref sig .tc .vmem S1x64 .i32) (harg3 : arg3.IsWhole) (arg4 : Memref sig .tc .vmem S8192x512 .f32) (harg4 : arg4.IsWhole)
    (arg5 : Memref sig .tc .vmem S1x64x512 .f32) (harg5 : arg5.IsWhole) (hc0 : ¬Gen.cond0_0 i)
    (x0 : Vec Ideal S1x64 .i32) (x1 : Vec Ideal S1x64 .i32) (x2 : Vec Ideal S8192x512 .f32) (xo3 : Vec Ideal S1x64x512 .f32) :
    Gen.out0_B_3 (F := Ideal) c i arg2 harg2 arg3 harg3 arg4 harg4 arg5 harg5 hc0 x0 x1 x2 xo3
      = fun j => xo3 j + tileSum x0 x1 x2 (baseWord i) j := by
  refine (pieceB (F := Ideal) c i arg2 harg2 arg3 harg3 arg4 harg4 arg5 harg5 hc0 x0 x1 x2 xo3).trans ?_
  funext j
  obtain ⟨u, b, d, rfl⟩ : ∃ (u : Fin 1) (b : Fin 64) (d : Fin 512), j = ix3 u b d := ⟨j 0, j 1, j 2, eq_ix3 j⟩
  exact bodyVal_apply i x0 x1 x2 xo3 u b d

end Cert.KernelIdeal.Hand

end
-- ==== Proof.KerReindex.lean ====
/-
  Two re-indexings of finite sums over row numbers, over any commutative monoid: four chunks of 2048 rows are one tile of
  8192 rows, and a core's eight tiles of 8192 rows are the rows of its half of the 131072.
-/
import Mathlib.Algebra.BigOperators.Fin
import Mathlib.Data.Fintype.Fin

open scoped BigOperators

namespace Cert.Seg

/-- A sum over `a` blocks of `b` consecutive numbers each is the sum over the first `b * a` numbers (induction on the
    number of blocks: the last block is the last `b` numbers). -/
theorem sum_range_blocks {M : Type*} [AddCommMonoid M] (a b : ℕ) (g : ℕ → M) :
    (∑ k ∈ Finset.range a, ∑ r ∈ Finset.range b, g (b * k + r)) = ∑ t ∈ Finset.range (b * a), g t := by
  induction a with
  | zero => simp
  | succ a ih => rw [Finset.sum_range_succ, ih, Nat.mul_succ, Finset.sum_range_add]

/-- The same with the blocks and the places in a block numbered by `Fin`. -/
theorem sum_fin_blocks {M : Type*} [AddCommMonoid M] (a b : ℕ) (g : ℕ → M) :
    (∑ k : Fin a, ∑ r : Fin b, g (b * k.val + r.val)) = ∑ t ∈ Finset.range (b * a), g t := by
  rw [← sum_range_blocks a b g, ← Fin.sum_univ_eq_sum_range (fun k => ∑ r ∈ Finset.range b, g (b * k + r)) a]
  exact Finset.sum_congr rfl (fun k _ => Fin.sum_univ_eq_sum_range (fun r => g (b * k.val + r)) b)

/-- Chunk `k` holds rows `2048 k … 2048 k + 2047` of the tile. -/
theorem sum_chunks {M : Type*} [AddCommMonoid M] (g : ℕ → M) :
    (∑ k : Fin 4, ∑ r : Fin 2048, g (2048 * k.val + r.val)) = ∑ r : Fin 8192, g r.val := by
  rw [sum_fin_blocks 4 2048 g, Fin.sum_univ_eq_sum_range g 8192]

/-- Step `s` of core `h` holds rows `65536 h + 8192 s … + 8191`; the rows `t` with `t / 65536 = h` are those of core `h`. -/
theorem sum_steps_rows {M : Type*} [AddCommMonoid M] (h : ℕ) (hh : h < 2) (g : ℕ → M) :
    (∑ s : Fin 8, ∑ r : Fin 8192, g (65536 * h + 8192 * s.val + r.val))
      = ∑ t : Fin 131072, if t.val / 65536 = h then g t.val else 0 := by
  -- the eight steps of 8192 rows are the 65536 rows from 65536 h on
  have hL : (∑ s : Fin 8, ∑ r : Fin 8192, g (65536 * h + 8192 * s.val + r.val))
      = ∑ t ∈ Finset.range 65536, g (65536 * h + t) := by
    rw [← sum_fin_blocks 8 8192 (fun t => g (65536 * h + t))]
    exact Finset.sum_congr rfl (fun s _ => Finset.sum_congr rfl (fun r _ => by rw [Nat.add_assoc]))
  -- all the rows: those before core h's (none of them counted), core h's, those after (none counted)
  have hR : (∑ t : Fin 131072, if t.val / 65536 = h then g t.val else 0)
      = ∑ t ∈ Finset.range 65536, g (65536 * h + t) := by
    rw [Fin.sum_univ_eq_sum_range (fun t => if t / 65536 = h then g t else 0) 131072,
      show (131072 : ℕ) = 65536 * h + 65536 + (65536 - 65536 * h) by omega, Finset.sum_range_add, Finset.sum_range_add]
    rw [Finset.sum_eq_zero (s := Finset.range (65536 * h)) (fun t ht => if_neg (by have := Finset.mem_range.1 ht; omega)),
      Finset.sum_eq_zero (s := Finset.range (65536 - 65536 * h)) (fun t _ => if_neg (by omega)), zero_add, add_zero]
    exact Finset.sum_congr rfl (fun t ht => if_pos (by have := Finset.mem_range.1 ht; omega))
  rw [hL, hR]

/-- The same for the steps up to `s₀` only (the running sum after step `s₀`). -/
theorem sum_steps_upto {M : Type*} [AddCommMonoid M] (n : ℕ) (f : ℕ → M) :
    (∑ s : Fin 8, if s.val ≤ n then f s.val else 0) = ∑ s ∈ Finset.range (min (n + 1) 8), f s := by
  rw [Fin.sum_univ_eq_sum_range (fun s => if s ≤ n then f s else 0) 8, ← Finset.sum_filter]
  congr 1
  ext s
  simp only [Finset.mem_filter, Finset.mem_range]
  omega

end Cert.Seg
-- ==== Proof.KerPartials.lean ====
/-
  What the pallas_call leaves in its output array: the block of core `h` is reset at the core's first step and gathers one
  tile's contribution per step, so after the core's eight steps it holds the sum over the core's 65536 rows; the two
  blocks tile the array.
-/
import proofs.«412226_j44435731644653_3_alg».proof.Proof.KerPieces
import proofs.«412226_j44435731644653_3_alg».proof.Proof.KerReindex
import Idealize.ShloMosaic.Lib.Pipeline.Value

noncomputable section

open scoped BigOperators

namespace Cert.KernelIdeal.Hand

open Idealize.ShloMosaic Idealize.ShloMosaic.ValueIdx Cert.KernelIdeal Cert.KernelIdeal.Facts₀

namespace Partials

section
variable (m : (ℓ : Loc nD τ sig) → Buf (Elt Ideal) ℓ)

/-- The three argument arrays of the call as the region finds them, and each window's block at a point, by their literal types. -/
abbrev xArr (c : Dev nD) : FVec Ideal S131072x512 .f32 := Gen.V m c main_arg0
abbrev loArr (c : Dev nD) : IVec S1x64 32 := Gen.V m c main_v4
abbrev hiArr (c : Dev nD) : IVec S1x64 32 := Gen.V m c main_v6
abbrev loBlk (c : Dev nD) (t : Fin cfg0.N) : Vec Ideal S1x64 .i32 := Gen.iblk m c 0 t
abbrev hiBlk (c : Dev nD) (t : Fin cfg0.N) : Vec Ideal S1x64 .i32 := Gen.iblk m c 1 t
abbrev xBlk (c : Dev nD) (t : Fin cfg0.N) : Vec Ideal S8192x512 .f32 := Gen.iblk m c 2 t

/-- The block indices of the four windows at point `t`: the boundary words' blocks are whole, the samples' block is tile `t`,
    the output's block is that of core `t / 8`. -/
theorem idx_facts : ∀ t : Fin cfg0.N,
    win0_0.index t 0 = 0 ∧ win0_0.index t 1 = 0 ∧ win0_1.index t 0 = 0 ∧ win0_1.index t 1 = 0
      ∧ win0_2.index t 0 = t.val ∧ win0_2.index t 1 = 0
      ∧ win0_3.index t 0 = t.val / 8 ∧ win0_3.index t 1 = 0 ∧ win0_3.index t 2 = 0 :=
  (by decide +kernel : ∀ t : Fin grid0.N, _)

/-- The first boundary word's block is the whole array at every point. -/
theorem loBlk_eq (c : Dev nD) (t : Fin cfg0.N) : loBlk m c t = loArr m c := by
  funext y
  unfold loBlk Gen.iblk
  rw [View.read_apply]
  show Gen.V m c main_v4 (((cfg0.win 0).blk t).view.emb y) = Gen.V m c main_v4 y
  congr 1
  funext a
  apply Fin.ext
  match a with
  | ⟨0, _⟩ => show win0_0.index t 0 * 1 + 1 * (y 0).val = (y 0).val; rw [(idx_facts t).1]; omega
  | ⟨1, _⟩ => show win0_0.index t 1 * 64 + 1 * (y 1).val = (y 1).val; rw [(idx_facts t).2.1]; omega

/-- The second boundary word's block is the whole array at every point. -/
theorem hiBlk_eq (c : Dev nD) (t : Fin cfg0.N) : hiBlk m c t = hiArr m c := by
  funext y
  unfold hiBlk Gen.iblk
  rw [View.read_apply]
  show Gen.V m c main_v6 (((cfg0.win 1).blk t).view.emb y) = Gen.V m c main_v6 y
  congr 1
  funext a
  apply Fin.ext
  match a with
  | ⟨0, _⟩ => show win0_1.index t 0 * 1 + 1 * (y 0).val = (y 0).val; rw [(idx_facts t).2.2.1]; omega
  | ⟨1, _⟩ => show win0_1.index t 1 * 64 + 1 * (y 1).val = (y 1).val; rw [(idx_facts t).2.2.2.1]; omega

/-- The samples' block at point `t` is rows `8192 t … 8192 t + 8191` of the samples. -/
theorem xBlk_apply (c : Dev nD) (t : Fin cfg0.N) (r : Fin 8192) (d : Fin 512) (k : Fin 131072)
    (hk : k.val = 8192 * t.val + r.val) : xBlk m c t (ix2 r d) = xArr m c (ix2 k d) := by
  unfold xBlk Gen.iblk
  rw [View.read_apply]
  show Gen.V m c main_arg0 (((cfg0.win 2).blk t).view.emb (ix2 r d)) = Gen.V m c main_arg0 (ix2 k d)
  congr 1
  funext a
  apply Fin.ext
  match a with
  | ⟨0, _⟩ => show win0_2.index t 0 * 8192 + 1 * r.val = k.val; rw [(idx_facts t).2.2.2.2.1, hk]; omega
  | ⟨1, _⟩ => show win0_2.index t 1 * 512 + 1 * d.val = d.val; rw [(idx_facts t).2.2.2.2.2.1]; omega

/-- The first row of point `t`'s tile, as the body's word: row number `8192 t`. -/
theorem baseWord_eq : ∀ t : Fin cfg0.N, baseWord (grid0.coords t) = BitVec.ofNat 32 (8192 * t.val) :=
  (by decide +kernel : ∀ t : Fin grid0.N, _)

/-- Row number `n`'s term at bag `b` and column `d`: its membership weight times its sample (zero past the last row). -/
def rowTerm (c : Dev nD) (b : Fin 64) (d : Fin 512) (n : ℕ) : EReal :=
  if hn : n < 131072 then
    Cert.Seg.hot (loArr m c (ix2 (0 : Fin 1) b)) (hiArr m c (ix2 (0 : Fin 1) b)) (BitVec.ofNat 32 n) * xArr m c (ix2 ⟨n, hn⟩ d)
  else 0

/-- Point `t`'s contribution is the sum of the terms of its tile's 8192 rows. -/
theorem tileSum_point (c : Dev nD) (t : Fin cfg0.N) (j : S1x64x512.Idx) :
    tileSum (loBlk m c t) (hiBlk m c t) (xBlk m c t) (baseWord (grid0.coords t)) j
      = ∑ r : Fin 8192, rowTerm m c (j 1) (j 2) (8192 * t.val + r.val) := by
  have hN : t.val < 16 := lt_of_lt_of_eq t.isLt (show cfg0.N = 16 from Gen.N_0)
  rw [loBlk_eq, hiBlk_eq, baseWord_eq]
  unfold tileSum
  refine Finset.sum_congr rfl fun r _ => ?_
  have hlt : 8192 * t.val + r.val < 131072 := by have := r.isLt; omega
  unfold rowTerm
  rw [dif_pos hlt, ← BitVec.ofNat_add, xBlk_apply m c t r (j 2) ⟨_, hlt⟩ rfl]

/-- Point `n`'s contribution to the carried block (zero past the grid). -/
def addend (c : Dev nD) (n : ℕ) : S1x64x512.Idx → EReal :=
  if h : n < cfg0.N then
    tileSum (loBlk m c ⟨n, h⟩) (hiBlk m c ⟨n, h⟩) (xBlk m c ⟨n, h⟩) (baseWord (grid0.coords ⟨n, h⟩))
  else fun _ => 0

/-- The carried block after point `t`: the contributions of the points of `t`'s core up to `t`, the block having been
    reset at the core's first step. -/
theorem carried_eq (c : Dev nD) (t : Fin cfg0.N) (j : S1x64x512.Idx) :
    Gen.outsAt0 m c t.val t.isLt j = ∑ s ∈ Finset.range (t.val % 8 + 1), addend m c (8 * (t.val / 8) + s) j := by
  have h' : 8 * (t.val / 8) + t.val % 8 < cfg0.N := by rw [Nat.div_add_mod]; exact t.isLt
  have e := Pipeline.eq_accAt_of_mod (N := cfg0.N) (Gen.outsAt0 m c) 8
    (fun n h => tileSum (loBlk m c ⟨n, h⟩) (hiBlk m c ⟨n, h⟩) (xBlk m c ⟨n, h⟩) (baseWord (grid0.coords ⟨n, h⟩)))
    (fun n h acc => fun j => acc j + tileSum (loBlk m c ⟨n, h⟩) (hiBlk m c ⟨n, h⟩) (xBlk m c ⟨n, h⟩) (baseWord (grid0.coords ⟨n, h⟩)) j)
    (fun n h h0 => by
      rw [Gen.outsAt0_A m c ⟨n, h⟩ h0]
      exact out0_A_3_eq c (grid0.coords ⟨n, h⟩) (Gen.ms0_0 ⟨n, h⟩) (Gen.hs0_0 ⟨n, h⟩) (Gen.ms0_1 ⟨n, h⟩) (Gen.hs0_1 ⟨n, h⟩)
        (Gen.ms0_2 ⟨n, h⟩) (Gen.hs0_2 ⟨n, h⟩) (Gen.ms0_3 ⟨n, h⟩) (Gen.hs0_3 ⟨n, h⟩) ((Gen.hcond0_0 ⟨n, h⟩).mpr h0)
        (loBlk m c ⟨n, h⟩) (hiBlk m c ⟨n, h⟩) (xBlk m c ⟨n, h⟩))
    (fun n h hB => by
      rw [Gen.outsAt0_B m c ⟨n + 1, h⟩ hB]
      exact out0_B_3_eq c (grid0.coords ⟨n + 1, h⟩) (Gen.ms0_0 ⟨n + 1, h⟩) (Gen.hs0_0 ⟨n + 1, h⟩) (Gen.ms0_1 ⟨n + 1, h⟩) (Gen.hs0_1 ⟨n + 1, h⟩)
        (Gen.ms0_2 ⟨n + 1, h⟩) (Gen.hs0_2 ⟨n + 1, h⟩) (Gen.ms0_3 ⟨n + 1, h⟩) (Gen.hs0_3 ⟨n + 1, h⟩)
        (fun hc => hB ((Gen.hcond0_0 ⟨n + 1, h⟩).mp hc))
        (loBlk m c ⟨n + 1, h⟩) (hiBlk m c ⟨n + 1, h⟩) (xBlk m c ⟨n + 1, h⟩) (Gen.outsAt0 m c n (Nat.lt_of_succ_lt h)))
    (by decide) t.val t.isLt h'
  rw [e]
  refine (Pipeline.accAt_add_apply (ι := S1x64x512.Idx) (β := EReal) _ _ (fun _ => 0) (addend m c) (8 * (t.val / 8)) 7
    (fun h i => by unfold addend; rw [dif_pos h, zero_add])
    (fun n h acc i _ _ => by unfold addend; rw [dif_pos h])
    (t.val % 8) (by omega) h' j).trans ?_
  rw [zero_add]

/-- The claimed array at an index with coordinates `h`, `b`, `d`: the terms of the rows of half `h`. -/
theorem partials_apply (c : Dev nD) (i : S2x64x512.Idx) (h : ℕ) (b : Fin 64) (d : Fin 512)
    (h0 : (i 0).val = h) (h1 : i 1 = b) (h2 : i 2 = d) :
    partials (xArr m c) (loArr m c) (hiArr m c) i
      = ∑ t : Fin 131072, if t.val / 65536 = h then rowTerm m c b d t.val else 0 := by
  unfold partials
  refine Finset.sum_congr rfl fun t _ => ?_
  rw [h0, h1, h2]
  unfold rowTerm
  rw [dif_pos t.isLt]

/-- After a core's last step the carried block holds, at bag `b` and column `d`, the sum of the terms of the core's 65536
    rows: eight tiles of 8192 rows each, tile `s` of core `h` starting at row `65536 h + 8192 s`. -/
theorem carried_last (c : Dev nD) (t : Fin cfg0.N) (h7 : t.val % 8 = 7) (j : S1x64x512.Idx) (i : S2x64x512.Idx)
    (h0 : (i 0).val = t.val / 8) (h1 : i 1 = j 1) (h2 : i 2 = j 2) :
    Gen.outsAt0 m c t.val t.isLt j = partials (xArr m c) (loArr m c) (hiArr m c) i := by
  have hN : t.val < 16 := lt_of_lt_of_eq t.isLt (show cfg0.N = 16 from Gen.N_0)
  rw [carried_eq m c t j, h7, partials_apply m c i (t.val / 8) (j 1) (j 2) h0 h1 h2,
    ← Cert.Seg.sum_steps_rows (M := EReal) (t.val / 8) (by omega) (rowTerm m c (j 1) (j 2)),
    ← Fin.sum_univ_eq_sum_range (fun s => addend m c (8 * (t.val / 8) + s) j) (7 + 1)]
  refine Finset.sum_congr rfl fun s _ => ?_
  have hs : 8 * (t.val / 8) + s.val < cfg0.N :=
    lt_of_lt_of_eq (by have := s.isLt; omega) (show (16 : ℕ) = cfg0.N from Gen.N_0.symm)
  unfold addend
  rw [dif_pos hs, tileSum_point m c ⟨_, hs⟩ j]
  refine Finset.sum_congr rfl fun r _ => ?_
  exact congrArg _ (by show 8192 * (8 * (t.val / 8) + s.val) + r.val = 65536 * (t.val / 8) + 8192 * s.val + r.val; omega)

set_option maxRecDepth 16384 in
/-- What a core's last step writes back is that core's block of the claimed array. -/
theorem flushed_eq (c : Dev nD) (t : Fin cfg0.N) (hf : (cfg0.win 3).flush t = true) :
    (Gen.dats m 0 c).flushed 3 t
      = ((cfg0.win 3).blk t).view.read (Elt Ideal) (partials (xArr m c) (loArr m c) (hiArr m c)) := by
  have h7 : t.val % 8 = 7 := (Gen.flush0_3 t).mp hf
  show (cfg0.win 3).cut (grid0.coords t) ((Gen.dats m 0 c).after 3 t) = _
  rw [Gen.after0_3]
  funext y
  rw [View.read_apply, cast_eq]
  have hy0 : (y 0).val < 1 := (y 0).isLt
  exact carried_last m c t h7 (win0_3.xinj (grid0.coords t) y) (((cfg0.win 3).blk t).view.emb y)
    (by show win0_3.index t 0 * 1 + 1 * (y 0).val = t.val / 8; rw [(idx_facts t).2.2.2.2.2.2.1]; omega)
    (Fin.ext (by show win0_3.index t 1 * 64 + 1 * (y 1).val = (y 1).val; rw [(idx_facts t).2.2.2.2.2.2.2.1]; omega))
    (Fin.ext (by show win0_3.index t 2 * 512 + 1 * (y 2).val = (y 2).val; rw [(idx_facts t).2.2.2.2.2.2.2.2]; omega))

/-- The two cores' last steps (points 7 and 15) write back blocks that tile the array: index `(h, b, d)` lies in the block
    of point `8 h + 7`. -/
theorem cover (c : Dev nD) (i : S2x64x512.Idx) :
    ∃ t : Fin cfg0.N, (cfg0.win 3).flush t = true ∧ i ∈ ((cfg0.win 3).blk t).view.set := by
  have hi0 : (i 0 : ℕ) < 2 := (i 0).isLt
  have hi1 : (i 1 : ℕ) < 64 := (i 1).isLt
  have hi2 : (i 2 : ℕ) < 512 := (i 2).isLt
  have ht : 8 * (i 0 : ℕ) + 7 < cfg0.N := lt_of_lt_of_eq (by omega) (show (16 : ℕ) = cfg0.N from Gen.N_0.symm)
  refine ⟨⟨8 * (i 0 : ℕ) + 7, ht⟩, (Gen.flush0_3 _).mpr (by show (8 * (i 0 : ℕ) + 7) % 8 = 7; omega), ?_⟩
  show i ∈ ((View.whole main_v7).slice (win0_3.rect ⟨8 * (i 0 : ℕ) + 7, ht⟩)).set
  rw [View.set_slice_whole, Rect.mem_set_unit]
  intro a
  match a with
  | ⟨0, _⟩ =>
    show win0_3.index ⟨8 * (i 0 : ℕ) + 7, ht⟩ 0 * 1 ≤ (i 0 : ℕ) ∧ (i 0 : ℕ) < win0_3.index ⟨8 * (i 0 : ℕ) + 7, ht⟩ 0 * 1 + 1
    rw [(idx_facts ⟨8 * (i 0 : ℕ) + 7, ht⟩).2.2.2.2.2.2.1]
    show (8 * (i 0 : ℕ) + 7) / 8 * 1 ≤ (i 0 : ℕ) ∧ (i 0 : ℕ) < (8 * (i 0 : ℕ) + 7) / 8 * 1 + 1
    omega
  | ⟨1, _⟩ =>
    show win0_3.index ⟨8 * (i 0 : ℕ) + 7, ht⟩ 1 * 64 ≤ (i 1 : ℕ) ∧ (i 1 : ℕ) < win0_3.index ⟨8 * (i 0 : ℕ) + 7, ht⟩ 1 * 64 + 64
    rw [(idx_facts ⟨8 * (i 0 : ℕ) + 7, ht⟩).2.2.2.2.2.2.2.1]
    omega
  | ⟨2, _⟩ =>
    show win0_3.index ⟨8 * (i 0 : ℕ) + 7, ht⟩ 2 * 512 ≤ (i 2 : ℕ) ∧ (i 2 : ℕ) < win0_3.index ⟨8 * (i 0 : ℕ) + 7, ht⟩ 2 * 512 + 512
    rw [(idx_facts ⟨8 * (i 0 : ℕ) + 7, ht⟩).2.2.2.2.2.2.2.2]
    omega

end

end Partials

/-- The array the call leaves: every flushed block is its block of the claimed array, and the flushed blocks tile the array. -/
theorem partials_eq (m : (ℓ : Loc nD τ sig) → Buf (Elt Ideal) ℓ) (c : Dev nD) :
    ((Gen.dats (F := Ideal) m 0 c).arrAt 3 cfg0.N : S2x64x512.Idx → EReal)
      = partials (Gen.V m c main_arg0) (Gen.V m c main_v4) (Gen.V m c main_v6) :=
  (Gen.dats (F := Ideal) m 0 c).arrAt_eq_of_cover 3 (partials (Partials.xArr m c) (Partials.loArr m c) (Partials.hiArr m c))
    (Partials.flushed_eq m c) (Partials.cover c)

end Cert.KernelIdeal.Hand

end
-- ==== Proof.KerRun.lean ====
/-
  The kernel program runs, and its result buffer ends at `kerVal` of the two argument arrays: the host operations before
  the call leave the boundary arrays `loW` and `hiW` of the counts, the call leaves `partials`, the host operations after it
  are `tail`.
-/
import proofs.«412226_j44435731644653_3_alg».proof.Proof.KerPartials

noncomputable section

namespace Cert.KernelIdeal.Hand

open Idealize.ShloMosaic Idealize.SL.Sem Cert.KernelIdeal Cert.KernelIdeal.Facts₀

attribute [local irreducible] Host.reduceWindow

/-- Before the call the host leaves each bag's first row in the first boundary array: the prefix sum of the counts with a
    zero in front, read from place 0. -/
theorem V_lo (m : (ℓ : Loc nD τ sig) → Buf (Elt Ideal) ℓ) (c : Dev nD) :
    (Gen.V m c main_v4 : S1x64.Idx → BitVec 32) = loW (Gen.V m c main_arg1) := by
  dsimp only [Gen.V, Gen.V0]
  simp only [Gen.hostOps0, Gen.hostOps0_1, Gen.hostOps0_2, List.flatten_cons, List.flatten_nil, List.append_nil,
    List.cons_append, List.nil_append]
  after_results
  rfl

/-- And the row after each bag's last in the second: the same boundary words read from place 1. -/
theorem V_hi (m : (ℓ : Loc nD τ sig) → Buf (Elt Ideal) ℓ) (c : Dev nD) :
    (Gen.V m c main_v6 : S1x64.Idx → BitVec 32) = hiW (Gen.V m c main_arg1) := by
  dsimp only [Gen.V, Gen.V0]
  simp only [Gen.hostOps0, Gen.hostOps0_1, Gen.hostOps0_2, List.flatten_cons, List.flatten_nil, List.append_nil,
    List.cons_append, List.nil_append]
  after_results
  rfl

/-- After the call the host adds the two halves of the call's output array and divides by the counts: the result buffer
    holds `tail` of that array and the counts. -/
theorem W_res (m : (ℓ : Loc nD τ sig) → Buf (Elt Ideal) ℓ) (c : Dev nD) :
    (Pipeline.afterTail₀ cfgs (Gen.dats (F := Ideal) m) 0 (Gen.V0 m) [Gen.hostOps1] c main_v12 : S64x512.Idx → EReal)
      = tail (F := Ideal) ((Gen.dats (F := Ideal) m 0 c).arrAt 3 cfg0.N) (m ((c.tc : Thread nD τ).loc main_arg1)) := by
  unfold Pipeline.afterTail₀
  show StableHlo.after Gen.hostOps1 _ (Proc.devRef .tc main_v12) = _
  after_results
  have h3 : Pipeline.withArrays (cfgs 0).spec c (Gen.V0 m c) (fun w => (Gen.dats (F := Ideal) m 0 c).arrAt w (cfgs 0).N)
      (Proc.devRef .tc main_v7) = (Gen.dats (F := Ideal) m 0 c).arrAt 3 cfg0.N :=
    Pipeline.withArrays_arr spec0 Gen.launch0.win.arr_inj c _ _ 3
  have h1 : Pipeline.withArrays (cfgs 0).spec c (Gen.V0 m c) (fun w => (Gen.dats (F := Ideal) m 0 c).arrAt w (cfgs 0).N)
      (Proc.devRef .tc main_arg1) = m ((c.tc : Thread nD τ).loc main_arg1) :=
    (Pipeline.withArrays_of_ne _ c (Gen.V0 m c) _ main_arg1
      (by exact (by decide : ∀ w, Pipeline.arrRef spec0 w ≠ main_arg1))).trans (Gen.V_main_arg1 m c)
  rw [h3, h1]
  rfl

/-- The result buffer after the whole program, as `kerVal` of the two argument arrays: the call's output array is
    `partials` of the samples and the two boundary arrays, which the host computed from the counts; no host operation
    before the call writes an argument array. -/
theorem res_eq (m : (ℓ : Loc nD τ sig) → Buf (Elt Ideal) ℓ) (c : Dev nD) :
    (Pipeline.afterTail₀ cfgs (Gen.dats (F := Ideal) m) 0 (Gen.V0 m) [Gen.hostOps1] c main_v12 : S64x512.Idx → EReal)
      = kerVal (m ((c.tc : Thread nD τ).loc main_arg0)) (m ((c.tc : Thread nD τ).loc main_arg1)) := by
  rw [W_res, partials_eq, V_lo, V_hi, Gen.V_main_arg0, Gen.V_main_arg1]
  rfl

theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v12)
          = kerVal (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  exact (θ_run defs _ _).mono (fun _ h c =>
    ⟨((h c).2 main_v12 (Pipeline.mem_restRefs_of main_v12 (by decide) (by decide))).trans (res_eq m c),
      ((h c).1 2).trans (((Gen.dats m 0 c).arrAt_in 2 rfl _).trans ((Gen.A_eq m c 2).trans (Gen.V_main_arg0 m c))),
      ((h c).2 main_arg1 (Pipeline.mem_restRefs_of main_arg1 (by decide) (by decide))).trans
        (Gen.W_main_arg1 m (Gen.dats m) c)⟩) (Gen.run_main m ρ)

end Cert.KernelIdeal.Hand

end
-- ==== Proof.SpecLemmas.lean ====
/-
  Facts about the bags' boundaries: the prefix sums are monotone, under admissible counts the word-level prefix sums are
  the natural-number ones, a row's bag is found by counting the boundaries at or before it, and the kernel's membership
  weight between two consecutive boundary words is the indicator of the bag.
-/
import proofs.«412226_j44435731644653_3_alg».proof.Proof.Spec
import Mathlib.Data.Fintype.Fin
import Mathlib.Algebra.BigOperators.Fin

noncomputable section

open scoped BigOperators

namespace Cert.Seg

open Idealize.ShloMosaic Idealize.ShloMosaic.ValueIdx

/-- A prefix sum over the first `k + 1` of the 64 positions is the prefix sum over the first `k` plus the term at `k`:
    the condition `i < k + 1` splits into `i < k` or `i = k`, and the second part is a one-point sum. -/
private theorem prefix_succ {M : Type*} [AddCommMonoid M] (f : Fin 64 → M) (k : Fin 64) :
    (∑ i : Fin 64, if i.val < k.val + 1 then f i else 0) = (∑ i : Fin 64, if i.val < k.val then f i else 0) + f k := by
  have hpt : ∀ i : Fin 64, (if i.val < k.val + 1 then f i else 0)
      = (if i.val < k.val then f i else 0) + (if i = k then f i else 0) := by
    intro i
    rcases lt_trichotomy i.val k.val with h1 | h1 | h1
    · have h2 : i ≠ k := fun h => by subst h; exact lt_irrefl _ h1
      have h3 : i.val < k.val + 1 := by omega
      simp [h1, h2, h3]
    · have h2 : i = k := Fin.ext h1
      subst h2; simp
    · have h2 : i ≠ k := fun h => by subst h; exact lt_irrefl _ h1
      have h3 : ¬ i.val < k.val + 1 := by omega
      have h4 : ¬ i.val < k.val := by omega
      simp [h2, h3, h4]
  simp only [hpt, Finset.sum_add_distrib, Finset.sum_ite_eq', Finset.mem_univ, if_true]

/-- Past the last position every one of the 64 terms is taken, so the prefix sum no longer changes. -/
private theorem prefix_ge {M : Type*} [AddCommMonoid M] (f : Fin 64 → M) {k : ℕ} (hk : 64 ≤ k) :
    (∑ i : Fin 64, if i.val < k then f i else 0) = ∑ i : Fin 64, if i.val < 64 then f i else 0 := by
  apply Finset.sum_congr rfl
  intro i _
  have h1 : i.val < k := lt_of_lt_of_le i.isLt hk
  have h2 : i.val < 64 := i.isLt
  simp [h1, h2]

theorem off_zero (cnt : SC.Idx → BitVec 32) : off cnt 0 = 0 := by simp [off]

theorem off_succ (cnt : SC.Idx → BitVec 32) (k : Fin 64) : off cnt (k.val + 1) = off cnt k.val + (cnt (ix1 k)).toNat := by
  unfold off
  exact prefix_succ (fun i => (cnt (ix1 i)).toNat) k

theorem off_mono (cnt : SC.Idx → BitVec 32) {a b : ℕ} (h : a ≤ b) : off cnt a ≤ off cnt b := by
  unfold off
  apply Finset.sum_le_sum
  intro i _
  by_cases h1 : i.val < a
  · have h2 : i.val < b := lt_of_lt_of_le h1 h
    simp [h1, h2]
  · simp [h1]

theorem off_le_total (cnt : SC.Idx → BitVec 32) (k : ℕ) : off cnt k ≤ off cnt 64 := by
  unfold off
  apply Finset.sum_le_sum
  intro i _
  have h2 : i.val < 64 := i.isLt
  by_cases h1 : i.val < k <;> simp [h1, h2]

theorem boff_zero (cnt : SC.Idx → BitVec 32) : boff cnt 0 = 0 := by simp [boff]

theorem boff_succ (cnt : SC.Idx → BitVec 32) (k : Fin 64) : boff cnt (k.val + 1) = boff cnt k.val + cnt (ix1 k) := by
  unfold boff
  exact prefix_succ (fun i => cnt (ix1 i)) k

private theorem off_ge (cnt : SC.Idx → BitVec 32) {k : ℕ} (hk : 64 ≤ k) : off cnt k = off cnt 64 := by
  unfold off
  exact prefix_ge (fun i => (cnt (ix1 i)).toNat) hk

private theorem boff_ge (cnt : SC.Idx → BitVec 32) {k : ℕ} (hk : 64 ≤ k) : boff cnt k = boff cnt 64 := by
  unfold boff
  exact prefix_ge (fun i => cnt (ix1 i)) hk

/-- Under admissible counts no prefix sum wraps. -/
theorem toNat_boff {cnt : SC.Idx → BitVec 32} (h : Ok cnt) (k : ℕ) : (boff cnt k).toNat = off cnt k := by
  induction k with
  | zero => rw [boff_zero, off_zero]; rfl
  | succ n ih =>
    by_cases hn : n < 64
    · -- one more count is added; the natural-number sum stays at most 131072, below 2 ^ 32, so the word sum does not wrap
      have hb := boff_succ cnt ⟨n, hn⟩
      have ho := off_succ cnt ⟨n, hn⟩
      simp only at hb ho
      rw [hb, BitVec.toNat_add, ih, ← ho]
      apply Nat.mod_eq_of_lt
      have hle := off_le_total cnt (n + 1)
      rw [h.total] at hle
      omega
    · -- beyond the last bag both prefix sums are already the full sums
      have hn' : 64 ≤ n := by omega
      have hn'' : 64 ≤ n + 1 := by omega
      rw [boff_ge cnt hn'', ← boff_ge cnt hn', ih, off_ge cnt hn', off_ge cnt hn'']

/-- A word below 2 ^ 31 has the same value read signed or unsigned. -/
private theorem toInt_small {a : BitVec 32} (ha : a.toNat < 2 ^ 31) : a.toInt = (a.toNat : ℤ) := by
  rw [BitVec.toInt_eq_msb_cond, BitVec.msb_eq_false_iff_two_mul_lt.mpr (by omega)]
  simp

/-- The membership weight between the boundary words of bag `b` is the indicator that the bag owns the row. -/
theorem hot_boff {cnt : SC.Idx → BitVec 32} (h : Ok cnt) (b : Fin 64) (t : Fin 131072) :
    hot (boff cnt b.val) (boff cnt (b.val + 1)) (BitVec.ofNat 32 t.val) = if owns cnt b.val t.val then 1 else 0 := by
  -- all three words are at most 131072, far below 2 ^ 31, so the signed comparisons compare the values
  have hlo : (boff cnt b.val).toNat = off cnt b.val := toNat_boff h _
  have hhi : (boff cnt (b.val + 1)).toNat = off cnt (b.val + 1) := toNat_boff h _
  have hg : (BitVec.ofNat 32 t.val).toNat = t.val := by
    rw [BitVec.toNat_ofNat]; apply Nat.mod_eq_of_lt; have := t.isLt; omega
  have b1 : off cnt b.val ≤ 131072 := by have := off_le_total cnt b.val; rw [h.total] at this; exact this
  have b2 : off cnt (b.val + 1) ≤ 131072 := by have := off_le_total cnt (b.val + 1); rw [h.total] at this; exact this
  have ilo : (boff cnt b.val).toInt = (off cnt b.val : ℤ) := by rw [toInt_small (by rw [hlo]; omega), hlo]
  have ihi : (boff cnt (b.val + 1)).toInt = (off cnt (b.val + 1) : ℤ) := by rw [toInt_small (by rw [hhi]; omega), hhi]
  have ig : (BitVec.ofNat 32 t.val).toInt = (t.val : ℤ) := by
    rw [toInt_small (by rw [hg]; have := t.isLt; omega), hg]
  have hiff : ((boff cnt b.val).sle (BitVec.ofNat 32 t.val) = true ∧ (BitVec.ofNat 32 t.val).slt (boff cnt (b.val + 1)) = true)
      ↔ owns cnt b.val t.val := by
    unfold owns
    simp only [BitVec.sle, BitVec.slt, decide_eq_true_eq, ilo, ihi, ig]
    omega
  unfold hot
  by_cases ho : owns cnt b.val t.val
  · rw [if_pos (hiff.mpr ho), if_pos ho]
  · rw [if_neg (fun hc => ho (hiff.mp hc)), if_neg ho]

/-- The first boundary is row 0, so every row has at least one boundary at or before it. -/
theorem rank_pos (cnt : SC.Idx → BitVec 32) (t : ℕ) :
    0 < (Finset.univ.filter fun j : Fin 64 => off cnt j.val ≤ t).card := by
  apply Finset.card_pos.mpr
  refine ⟨(0 : Fin 64), ?_⟩
  simp [off_zero]

/-- If bag `b` owns row `t`, the boundaries at or before `t` are exactly those of the bags `0, …, b`: earlier boundaries are
    no larger than bag `b`'s, later ones no smaller than bag `b + 1`'s. -/
private theorem rank_of_owns (cnt : SC.Idx → BitVec 32) (t : ℕ) (b : Fin 64) (ho : owns cnt b.val t) :
    (Finset.univ.filter fun j : Fin 64 => off cnt j.val ≤ t).card = b.val + 1 := by
  have hS : (Finset.univ.filter fun j : Fin 64 => off cnt j.val ≤ t) = Finset.univ.filter fun j : Fin 64 => (j : ℕ) < b.val + 1 := by
    ext j
    simp only [Finset.mem_filter, Finset.mem_univ, true_and]
    constructor
    · intro hj
      by_contra hc
      have hlt : b.val + 1 ≤ j.val := not_lt.mp hc
      have := off_mono cnt hlt
      have := ho.2
      omega
    · intro hj
      have hle : j.val ≤ b.val := by omega
      have := off_mono cnt hle
      have := ho.1
      omega
  have hb := b.isLt
  rw [hS, Fin.card_filter_val_lt]
  omega

/-- Every row below the total is owned by some bag: walk the boundaries up to the first one beyond the row. -/
private theorem exists_owner (cnt : SC.Idx → BitVec 32) (t : ℕ) :
    ∀ k : ℕ, k ≤ 64 → t < off cnt k → ∃ b : ℕ, b < k ∧ owns cnt b t := by
  intro k
  induction k with
  | zero => intro _ h0; rw [off_zero] at h0; exact absurd h0 (Nat.not_lt_zero _)
  | succ n ih =>
    intro hn ht
    by_cases hc : t < off cnt n
    · obtain ⟨b, hb, hob⟩ := ih (by omega) hc
      exact ⟨b, by omega, hob⟩
    · exact ⟨n, by omega, ⟨not_lt.mp hc, ht⟩⟩

/-- A row's bag is the number of bags that start at or before it, less one. -/
theorem rank_eq_iff {cnt : SC.Idx → BitVec 32} (h : Ok cnt) (t : Fin 131072) (b : Fin 64) :
    (Finset.univ.filter fun j : Fin 64 => off cnt j.val ≤ t.val).card = b.val + 1 ↔ owns cnt b.val t.val := by
  constructor
  · intro hcard
    have ht : t.val < off cnt 64 := by rw [h.total]; exact t.isLt
    obtain ⟨b', hb', hob'⟩ := exists_owner cnt t.val 64 (le_refl _) ht
    have hcard' := rank_of_owns cnt t.val ⟨b', hb'⟩ hob'
    simp only at hcard'
    have hbb : b.val = b' := by omega
    rw [hbb]; exact hob'
  · intro ho
    exact rank_of_owns cnt t.val b ho

/-- Summing over the two halves of the rows, each half keeping its own rows, is summing over all rows. -/
theorem sum_halves {M : Type*} [AddCommMonoid M] (f : Fin 131072 → M) :
    (∑ h : Fin 2, ∑ t : Fin 131072, if t.val / 65536 = h.val then f t else 0) = ∑ t : Fin 131072, f t := by
  rw [Finset.sum_comm]
  apply Finset.sum_congr rfl
  intro t _
  rw [Fin.sum_univ_two]
  have ht : t.val / 65536 = 0 ∨ t.val / 65536 = 1 := by have := t.isLt; omega
  rcases ht with h0 | h1
  · simp [h0]
  · simp [h1]

end Cert.Seg

end
-- ==== Proof.LibCumsum.lean ====
/-
  An inclusive prefix sum written as a window reduction (what a cumulative sum of integers lowers to): the window is as
  long as the vector, the vector is padded in front by one less than its length, so the window at place `j` holds places
  `0 … j` and padding; the result at `j` is the sum of the entries at places `0 … j`, in 32-bit words.
-/
import Idealize.ShloMosaic.PureOps
import Idealize.ShloMosaic.Lib.ValueIdx
import Mathlib.Data.BitVec

noncomputable section

open scoped BigOperators

namespace Cert.LibCumsum

open Idealize.ShloMosaic Idealize.ShloMosaic.ValueIdx

/-- A left fold of word addition over a list is the start plus the sum of the list's terms. -/
theorem foldl_addi_list {ι : Type} (g : ι → BitVec 32) (L : List ι) (v : BitVec 32) :
    L.foldl (fun r n => IntOp.addi r (g n)) v = v + (L.map g).sum := by
  induction L generalizing v with
  | nil => simp
  | cons a L ih =>
    rw [List.foldl_cons, ih, List.map_cons, List.sum_cons]
    show (v + g a) + _ = _
    rw [add_assoc]

/-- A left fold of word addition over all of `Fin M` in order is the start plus the sum over `Fin M`. -/
theorem foldl_addi_finRange {M : ℕ} (g : Fin M → BitVec 32) (v : BitVec 32) :
    (List.finRange M).foldl (fun r n => IntOp.addi r (g n)) v = v + ∑ n, g n := by
  rw [foldl_addi_list, ← List.ofFn_eq_map, List.sum_ofFn]

/-- The rank-one multi-indices of length `N` are the numbers below `N`. -/
def ix1Equiv (N : ℕ) : Fin N ≃ (⟨1, ![N]⟩ : Shape).Idx where
  toFun := ix1
  invFun k := k 0
  left_inv _ := rfl
  right_inv k := (eq_ix1 k).symm

/-- A vector of `N` words read at any natural number: zero from `N` on. -/
def ext0 {N : ℕ} (x : (⟨1, ![N]⟩ : Shape).Idx → BitVec 32) (m : ℕ) : BitVec 32 :=
  if h : m < N then x (ix1 ⟨m, h⟩) else 0

theorem ext0_val {N : ℕ} (x : (⟨1, ![N]⟩ : Shape).Idx → BitVec 32) (i : Fin N) : ext0 x i.val = x (ix1 i) :=
  dif_pos i.isLt

/-- Summing, over the `P + 1` window positions `n`, the entry at place `j + n - P` where `P ≤ j + n` (and nothing
    elsewhere) is summing the entries at the places `0 … j`: both are the sum over the first `j + 1` places. -/
theorem sum_window_shift (P : ℕ) (f : ℕ → BitVec 32) (j : ℕ) (hj : j ≤ P) :
    ∑ n ∈ Finset.range (P + 1), (if P ≤ j + n then f (j + n - P) else 0)
      = ∑ i ∈ Finset.range (P + 1), (if i ≤ j then f i else 0) := by
  have hL : ∑ n ∈ Finset.range (P + 1), (if P ≤ j + n then f (j + n - P) else 0) = ∑ k ∈ Finset.range (j + 1), f k := by
    rw [show P + 1 = (P - j) + (j + 1) by omega, Finset.sum_range_add]
    rw [Finset.sum_eq_zero (fun n hn => if_neg (by have := Finset.mem_range.1 hn; omega)), zero_add]
    refine Finset.sum_congr rfl (fun k hk => ?_)
    have := Finset.mem_range.1 hk
    rw [if_pos (by omega)]
    congr 1
    omega
  have hR : ∑ i ∈ Finset.range (P + 1), (if i ≤ j then f i else 0) = ∑ k ∈ Finset.range (j + 1), f k := by
    rw [show P + 1 = (j + 1) + (P - j) by omega, Finset.sum_range_add]
    rw [Finset.sum_eq_zero (s := Finset.range (P - j)) (fun n _ => if_neg (by omega)), add_zero]
    refine Finset.sum_congr rfl (fun k hk => ?_)
    have := Finset.mem_range.1 hk
    rw [if_pos (by omega)]
  rw [hL, hR]

/-- `Host.reduceWindow IntOp.addi` with window `N`, stride 1, `P = N - 1` places of padding in front and none behind, from a
    zero initial value, over a vector of `N` words, is the inclusive prefix sum. -/
theorem cumsum_apply {N P : ℕ} (hP : P + 1 = N) {u : Shape} (x : (⟨1, ![N]⟩ : Shape).Idx → BitVec 32) (init : u.Idx → BitVec 32)
    (h : (⟨1, ![N]⟩ : Shape).ReduceWindows (![N] : Fin 1 → Nat) ![1] ![P] ![0] ⟨1, ![N]⟩) (hu : 0 < u.numel)
    (hinit : init (Shape.Idx.first hu) = 0) (j : Fin N) :
    Host.reduceWindow IntOp.addi ![N] ![1] ![P] ![0] x init h hu (ix1 j)
      = ∑ i : Fin N, if i.val ≤ j.val then x (ix1 i) else 0 := by
  unfold Host.reduceWindow
  dsimp only
  -- the fold of additions from zero is the sum over the window positions
  rw [foldl_addi_finRange, hinit, zero_add]
  -- window positions are numbered by their one coordinate
  refine (Equiv.sum_comp (Shape.rowMajor ⟨1, ![N]⟩) _).symm.trans ?_
  refine (Equiv.sum_comp (ix1Equiv N) _).symm.trans ?_
  simp only [Equiv.symm_apply_apply]
  -- each term: the entry at place j + n - P where that is a place, else zero
  trans (∑ n : Fin N, if P ≤ j.val + n.val then ext0 x (j.val + n.val - P) else 0)
  · refine Finset.sum_congr rfl (fun n _ => ?_)
    have hn := n.isLt
    have hjl := j.isLt
    split_ifs with h1 h2 h2
    · have hlt : j.val + n.val - P < N := by omega
      rw [ext0, dif_pos hlt]
      congr 1
      funext a
      match a with
      | ⟨0, _⟩ =>
        apply Fin.ext
        show j.val * 1 + n.val - P = j.val + n.val - P
        omega
    · have h0 := (h1 0).1
      change P ≤ j.val * 1 + n.val at h0
      omega
    · refine absurd (fun a => ?_) h1
      match a with
      | ⟨0, _⟩ =>
        refine ⟨?_, ?_⟩
        · show P ≤ j.val * 1 + n.val
          omega
        · show j.val * 1 + n.val - P < N
          omega
    · rfl
  · subst hP
    simp only [← ext0_val x]
    rw [Fin.sum_univ_eq_sum_range (fun n => if P ≤ j.val + n then ext0 x (j.val + n - P) else 0) (P + 1),
      Fin.sum_univ_eq_sum_range (fun i => if i ≤ j.val then ext0 x i else 0) (P + 1)]
    exact sum_window_shift P (ext0 x) j.val (by have := j.isLt; omega)

end Cert.LibCumsum

end
-- ==== Proof.KerRead.lean ====
/-
  The kernel program's term is the segmented mean: under admissible counts the boundary words are the bags' boundaries,
  so a row's weight in a bag is one exactly when the bag owns it, and the two halves' sums add up to the sum over all rows.
-/
import proofs.«412226_j44435731644653_3_alg».proof.Proof.KerVal
import proofs.«412226_j44435731644653_3_alg».proof.Proof.SpecLemmas
import proofs.«412226_j44435731644653_3_alg».proof.Proof.LibCumsum
import Idealize.ShloMosaic.Lib.Pipeline.Value
import Idealize.ShloMosaic.Lib.ValueLayout
import Idealize.ShloMosaic.PureOps.Ideal.Laws

noncomputable section

open scoped BigOperators

namespace Cert.KernelIdeal.Hand

open Idealize.ShloMosaic Idealize.ShloMosaic.ValueIdx Cert.KernelIdeal Cert.KernelIdeal.Facts₀

/-- The inclusive prefix sum of the counts at place `k` is the word-level prefix sum over the first `k + 1` bags. -/
private theorem incl_eq_boff (cnt : IVec S64 32) (k : Fin 64) :
    (∑ i : Fin 64, if i.val ≤ k.val then cnt (ix1 i) else 0) = Cert.Seg.boff cnt (k.val + 1) := by
  unfold Cert.Seg.boff
  apply Finset.sum_congr rfl
  intro i _
  by_cases h1 : i.val ≤ k.val
  · rw [if_pos h1, if_pos (by omega)]
  · rw [if_neg h1, if_neg (by omega)]

/-- The first boundary word is zero. -/
private theorem bounds_zero (cnt : IVec S64 32) : bounds cnt (ix1 (0 : Fin 65)) = Cert.Seg.boff cnt 0 := by
  rw [Cert.Seg.boff_zero]
  unfold bounds
  refine (concatenate_pair_apply_left (t := S65) (s₁ := S1) (s₂ := S64) (0 : Fin 1) _ _ concatenates_S1_S64_S65_d0 (ix1 (0 : Fin 65)) rfl (ix1 (0 : Fin 1)) ?_).trans ?_
  · intro b
    match b with
    | ⟨0, _⟩ => rfl
  · rfl

/-- The boundary word at place `k + 1` is the prefix sum over the first `k + 1` bags. -/
private theorem bounds_succ (cnt : IVec S64 32) (k : Fin 64) :
    bounds cnt (ix1 (⟨k.val + 1, by omega⟩ : Fin 65)) = Cert.Seg.boff cnt (k.val + 1) := by
  unfold bounds
  refine (concatenate_pair_apply_right (t := S65) (s₁ := S1) (s₂ := S64) (0 : Fin 1) _ _ concatenates_S1_S64_S65_d0 (ix1 (⟨k.val + 1, by omega⟩ : Fin 65)) rfl rfl (ix1 k) ?_ ?_).trans ?_
  · intro b hb
    match b with
    | ⟨0, _⟩ => exact absurd rfl hb
  · rfl
  · rw [Cert.LibCumsum.cumsum_apply (N := 64) (P := 63) rfl cnt _ reduceWindows_S64_S64_w64s1p63_0 h_S_ rfl k]
    exact incl_eq_boff cnt k

/-- Every boundary word is the word-level prefix sum over the bags before its place. -/
private theorem bounds_apply (cnt : IVec S64 32) (k : Fin 65) : bounds cnt (ix1 k) = Cert.Seg.boff cnt k.val := by
  obtain ⟨kv, hk⟩ := k
  cases kv with
  | zero => exact bounds_zero cnt
  | succ n => exact bounds_succ cnt ⟨n, by omega⟩

/-- Bag `b`'s first-row word is the prefix sum over the bags before `b`. -/
private theorem loW_apply (cnt : IVec S64 32) (b : Fin 64) : loW cnt (ix2 (0 : Fin 1) b) = Cert.Seg.boff cnt b.val := by
  unfold loW
  rw [shapeCast_a_1a_apply]
  rw [extractStridedSlice_apply ![0] (bounds cnt) slices_S65_S64_0 (ix1 b) (ix1 (⟨b.val, by omega⟩ : Fin 65))
    (by intro a; match a with | ⟨0, _⟩ => exact (Nat.zero_add _).symm)]
  exact bounds_apply cnt _

/-- Bag `b`'s word for the row after its last is the prefix sum over the bags up to `b`. -/
private theorem hiW_apply (cnt : IVec S64 32) (b : Fin 64) : hiW cnt (ix2 (0 : Fin 1) b) = Cert.Seg.boff cnt (b.val + 1) := by
  unfold hiW
  rw [shapeCast_a_1a_apply]
  rw [extractStridedSlice_apply ![1] (bounds cnt) slices_S65_S64_1 (ix1 b) (ix1 (⟨b.val + 1, by omega⟩ : Fin 65))
    (by intro a; match a with | ⟨0, _⟩ => exact Nat.add_comm _ _)]
  exact bounds_apply cnt _

/-- The divisor at `(b, d)` is bag `b`'s count read as a real number. -/
private theorem divisor_apply (cnt : IVec S64 32) (b : Fin 64) (d : Fin 512) :
    (broadcastInDim S64x512 ![0, 1] bcast_S64x1_S64x512_0_1
      (broadcastInDim S64x1 ![0] bcast_S64_S64x1_0 (sitofp .f32 cnt)) : FVec Ideal S64x512 .f32) (ix2 b d)
      = (((cnt (ix1 b)).toInt : ℝ) : EReal) := by
  rw [broadcastInDim_apply ![0, 1] bcast_S64x1_S64x512_0_1 _ (ix2 b d) (ix2 b (0 : Fin 1))
    (by intro a; match a with | ⟨0, _⟩ => rfl | ⟨1, _⟩ => rfl)]
  rw [broadcastInDim_apply ![0] bcast_S64_S64x1_0 _ (ix2 b (0 : Fin 1)) (ix1 b)
    (by intro a; match a with | ⟨0, _⟩ => rfl)]
  rfl

/-- The two halves' partial sums at `(b, d)` add up to bag `b`'s sum of column `d`: each row's weight is the indicator that
    the bag owns it, and the halves together are all rows. -/
private theorem partials_sum (x : FVec Ideal S131072x512 .f32) (cnt : IVec S64 32) (h : Cert.Seg.Ok cnt) (b : Fin 64) (d : Fin 512) :
    (∑ k : Fin 2, partials x (loW cnt) (hiW cnt) (ix3 k b d)) = Cert.Seg.bagSum x cnt (ix2 b d) := by
  show (∑ k : Fin 2, ∑ t : Fin 131072, if t.val / 65536 = k.val then
      Cert.Seg.hot (loW cnt (ix2 (0 : Fin 1) b)) (hiW cnt (ix2 (0 : Fin 1) b)) (BitVec.ofNat 32 t.val) * x (ix2 t d) else 0)
    = ∑ t : Fin 131072, if Cert.Seg.owns cnt b.val t.val then x (ix2 t d) else 0
  rw [loW_apply, hiW_apply]
  rw [Cert.Seg.sum_halves (fun t : Fin 131072 =>
    Cert.Seg.hot (Cert.Seg.boff cnt b.val) (Cert.Seg.boff cnt (b.val + 1)) (BitVec.ofNat 32 t.val) * x (ix2 t d))]
  apply Finset.sum_congr rfl
  intro t _
  rw [Cert.Seg.hot_boff h b t]
  by_cases ho : Cert.Seg.owns cnt b.val t.val
  · rw [if_pos ho, if_pos ho, one_mul]
  · rw [if_neg ho, if_neg ho, zero_mul]

/-- The kernel program's result is the segmented mean: at `(b, d)` both are a quotient with the bag's count read as a real
    number below; above, the zero start plus the two halves' partial sums is the bag's sum of column `d`. -/
theorem kerVal_eq (x : FVec Ideal S131072x512 .f32) (cnt : IVec S64 32) (h : Cert.Seg.Ok cnt) :
    kerVal x cnt = Cert.Seg.G x cnt := by
  funext j
  obtain ⟨b, d, rfl⟩ : ∃ b d, j = ix2 b d := ⟨j 0, j 1, eq_ix2 j⟩
  have hR : S2x64x512.Reduces [0] S64x512 := by decide
  show Ideal.div (Ideal.hostReduceAdd reducesTo_S2x64x512_S64x512_d0 (partials x (loW cnt) (hiW cnt))
      (Ideal.ofBits .f32 0x00000000#32) (ix2 b d))
    ((broadcastInDim S64x512 ![0, 1] bcast_S64x1_S64x512_0_1
      (broadcastInDim S64x1 ![0] bcast_S64_S64x1_0 (sitofp .f32 cnt)) : FVec Ideal S64x512 .f32) (ix2 b d))
    = Ideal.div (Cert.Seg.bagSum x cnt (ix2 b d)) (((cnt (ix1 b)).toInt : ℝ) : EReal)
  rw [divisor_apply, Ideal.hostReduceAdd_single reducesTo_S2x64x512_S64x512_d0 hR, Ideal.ofBits_zero_f32, zero_add]
  refine congrArg (fun s : EReal => Ideal.div s (((cnt (ix1 b)).toInt : ℝ) : EReal)) ?_
  refine Eq.trans ?_ (partials_sum x cnt h b d)
  apply Finset.sum_congr rfl
  intro k _
  refine congrArg (partials x (loW cnt) (hiW cnt)) ?_
  funext a
  match a with
  | ⟨0, _⟩ => rfl
  | ⟨1, _⟩ => rfl
  | ⟨2, _⟩ => rfl

end Cert.KernelIdeal.Hand

end
-- ==== Proof.RefVal.lean ====
/-
  The reference's result as ONE pure term of its two argument arrays: the host operations of its @main composed in
  order. The bag of each row is found by ranking: the bags' starting rows (an exclusive prefix sum of the counts,
  `starts`) are marked in a zero vector of one entry per row (`marks`: an entry counts the bags that start there), the
  inclusive prefix sum of the marks less one is the row's bag (`rank`), read back through a clamped take from
  `0, 1, …, 63` with out-of-range ranks replaced by the least word (`segIds`); the rows are then added into their bags
  and each bag's sum is divided by its count.
-/
import proofs.«412226_j44435731644653_3_alg».proof.Proof.Gen.ReferenceIdeal

noncomputable section

namespace Cert.ReferenceIdeal.Hand

open Idealize.ShloMosaic Cert.ReferenceIdeal Cert.ReferenceIdeal.Facts₀

variable {F : FTy → Type} [FloatOps F]

/-- A scalar word broadcast as the zero-rank operand of a prefix sum. -/
abbrev zeroInit : IVec S_ 32 := broadcastInDim S_ ![] bcast_S_S_ (constantI S_ 32 0#32)

/-- The counts shifted one place up with a zero in front: entry `j` is the count of bag `j - 1`. -/
def excl (cnt : IVec S64 32) : IVec S64 32 :=
  Host.scatter scatter_S64_S1_S__n_0_0_0 (fun _ b => b)
    (concatenate S64 0 [⟨S1, extractStridedSlice S1 ![63] cnt slices_S64_S1_63⟩,
      ⟨S63, extractStridedSlice S63 ![0] cnt slices_S64_S63_0⟩] concatenates_S1_S63_S64_d0)
    (broadcastInDim S1 ![] bcast_S_S1 (constantI S_ 32 0#32)) (constantI S_ 32 0#32)

/-- Each bag's starting row, in 32-bit words: the inclusive prefix sum of `excl`. -/
def starts (cnt : IVec S64 32) : IVec S64 32 :=
  Host.reduceWindow IntOp.addi ![64] ![1] ![63] ![0] (excl cnt) zeroInit reduceWindows_S64_S64_w64s1p63_0 h_S_

/-- The starting rows with a negative word moved up by the number of rows. -/
def startsWrapped (cnt : IVec S64 32) : IVec S64 32 :=
  select (cmpi .slt (starts cnt) (broadcastInDim S64 ![] bcast_S_S64 (constantI S_ 32 0#32)))
    (addi (starts cnt) (broadcastInDim S64 ![] bcast_S_S64 (constantI S_ 32 131072#32))) (starts cnt)

/-- One entry per row: the number of bags that start at that row. -/
def marks (cnt : IVec S64 32) : IVec S131072 32 :=
  Host.scatter scatter_S131072_S64x1_S64_n_0_0_1 IntOp.addi
    (broadcastInDim S131072 ![] bcast_S_S131072 (constantI S_ 32 0#32))
    (broadcastInDim S64x1 ![0] bcast_S64_S64x1_0 (startsWrapped cnt))
    (broadcastInDim S64 ![] bcast_S_S64 (constantI S_ 32 1#32))

/-- The number of bags that start at or before the row, less one. -/
def rank (cnt : IVec S64 32) : IVec S131072 32 :=
  subi (Host.reduceWindow IntOp.addi ![131072] ![1] ![131071] ![0] (marks cnt) zeroInit
      reduceWindows_S131072_S131072_w131072s1p131071_0 h_S_)
    (broadcastInDim S131072 ![] bcast_S_S131072 (constantI S_ 32 1#32))

/-- The rank with a negative word moved up by 64, as a column of start indices. -/
def rankCol (cnt : IVec S64 32) : IVec S131072x1 32 :=
  broadcastInDim S131072x1 ![0] bcast_S131072_S131072x1_0
    (select (cmpi .slt (rank cnt) (broadcastInDim S131072 ![] bcast_S_S131072 (constantI S_ 32 0#32)))
      (addi (rank cnt) (broadcastInDim S131072 ![] bcast_S_S131072 (constantI S_ 32 64#32))) (rank cnt))

/-- Each row's bag: the take of `0 … 63` at the rank, the least word where the rank is outside `0 … 63`. -/
def segIds (cnt : IVec S64 32) : IVec S131072 32 :=
  select
    (Host.reduce IntOp.andi
      (andi (cmpi .sge (rankCol cnt) (broadcastInDim S131072x1 ![] bcast_S_S131072x1 (constantI S_ 32 0#32)))
        (cmpi .sle (rankCol cnt)
          (broadcastInDim S131072x1 ![0, 1] bcast_S1x1_S131072x1_0_1
            (broadcastInDim S1x1 ![1] bcast_S1_S1x1_1 (constantI S1 32 63#32)))))
      (constantI S_ 1 1#1) reducesTo_S131072x1_S131072_d1 h_S_)
    (Host.gather gather_S64_S131072x1_S131072_n_0_n_n_0_1_1 (iotaInDim S64 32 0) (rankCol cnt))
    (broadcastInDim S131072 ![] bcast_S_S131072 (constantI S_ 32 2147483648#32))

/-- The bags' sums: every row added into the bag `segIds` names. -/
def sums (x : FVec F S131072x512 .f32) (cnt : IVec S64 32) : FVec F S64x512 .f32 :=
  Host.scatterAdd scatter_S64x512_S131072x1_S131072x512_1_0_0_1
    (broadcastInDim S64x512 ![] bcast_S_S64x512 (constant S_ .f32 0x00000000#32))
    (broadcastInDim S131072x1 ![0] bcast_S131072_S131072x1_0 (segIds cnt)) x

/-- The reference's result. -/
def refVal (x : FVec F S131072x512 .f32) (cnt : IVec S64 32) : FVec F S64x512 .f32 :=
  Host.divf (sums x cnt)
    (broadcastInDim S64x512 ![0, 1] bcast_S64x1_S64x512_0_1
      (sitofp .f32 (broadcastInDim S64x1 ![0] bcast_S64_S64x1_0 cnt)))

end Cert.ReferenceIdeal.Hand

end
-- ==== Proof.RefRun.lean ====
/-
  The reference program runs: its @main is a straight line of host operations (the helper functions' bodies unfolded at
  their calls), so every execution terminates with each buffer at the operations' composition; read at the result buffer
  that composition is `refVal` of the two argument arrays, which end unchanged.
-/
import proofs.«412226_j44435731644653_3_alg».proof.Proof.RefVal
import Idealize.ShloMosaic.Lib.StableHlo.Run
import Mathlib.Data.List.Basic

noncomputable section

namespace Cert.ReferenceIdeal.Hand

open Idealize.ShloMosaic Idealize.SL.Sem Cert.ReferenceIdeal Cert.ReferenceIdeal.Facts₀

variable {F : FTy → Type} [FloatOps F]

namespace RefRun

open Idealize.ShloMosaic.StableHlo

/-! ## The line, in six stretches

@main is a straight line of sixty host operations, each helper's operations standing where it is called, over that
call's buffers. It is cut here where the values `RefVal` names are complete — the shifted counts, the starts, the
marks, the rank, the bag numbers, the result — so that each stretch is read back on its own, over whatever the
buffers held before it. -/

/-- The row numbers `0 … 63`, and the counts shifted one place up with a zero in front: the last entry and the first
    sixty-three joined (the roll), then a zero written over entry 0. -/
abbrev opsA : List (HloOp τ sig (Elt F)) :=
  [ nullary main_v0 (iotaInDim S64 32 0),
    TRef.unary (.of main_arg1 : TRef sig ⟨S64, .i32⟩) main_call0.v0 (extractStridedSlice S1 ![63] · slices_S64_S1_63),
    TRef.unary (.of main_arg1 : TRef sig ⟨S64, .i32⟩) main_call0.v1 (extractStridedSlice S63 ![0] · slices_S64_S63_0),
    TRef.binary main_call0.v0 main_call0.v1 main_call0.v2
      (fun a b => concatenate S64 0 [⟨S1, a⟩, ⟨S63, b⟩] concatenates_S1_S63_S64_d0),
    nullary main_c (constantI S_ 32 0#32),
    unary main_c main_v2 (broadcastInDim S1 ![] bcast_S_S1 : (⟨S_, .i32⟩ : BufTy).Contents (Elt F) → (⟨S1, .i32⟩ : BufTy).Contents (Elt F)),
    nullary main_c_0 (constantI S_ 32 0#32),
    ternary main_v1 main_v2 main_c_0 main_v3
      ((fun x i u => Host.scatter scatter_S64_S1_S__n_0_0_0 (fun _ b => b) x i u) : (⟨S64, .i32⟩ : BufTy).Contents (Elt F) → (⟨S1, .i32⟩ : BufTy).Contents (Elt F) → (⟨S_, .i32⟩ : BufTy).Contents (Elt F) → (⟨S64, .i32⟩ : BufTy).Contents (Elt F)) ]

theorem opsA_sub : (opsA : List (HloOp τ sig (Elt F))).Forall fun op => op.bufs ⊆ tcRefs τ sig :=
  ⟨nullary_bufs_sub .., unary_bufs_sub .., unary_bufs_sub .., binary_bufs_sub .., nullary_bufs_sub .., unary_bufs_sub ..,
    nullary_bufs_sub .., ternary_bufs_sub ..⟩

/-- The inclusive prefix sum of the shifted counts: a zero, its rank-0 broadcast as the sum's start, the windowed sum
    (window 64, 63 places of padding in front). -/
abbrev opsB : List (HloOp τ sig (Elt F)) :=
  [ TRef.nullary main_call1.call0.c (constantI S_ 32 0#32),
    TRef.unary main_call1.call0.c main_call1.call0.v0 (broadcastInDim S_ ![] bcast_S_S_),
    TRef.binary (.of main_v3 : TRef sig ⟨S64, .i32⟩) main_call1.call0.v0 main_call1.call0.v1
      (fun x v => Host.reduceWindow IntOp.addi ![64] ![1] ![63] ![0] x v reduceWindows_S64_S64_w64s1p63_0 h_S_) ]

theorem opsB_sub : (opsB : List (HloOp τ sig (Elt F))).Forall fun op => op.bufs ⊆ tcRefs τ sig :=
  ⟨nullary_bufs_sub .., unary_bufs_sub .., binary_bufs_sub ..⟩

/-- The marks: the zero vector of one entry per row; each start less than zero moved up by the number of rows; the
    starts as a column of indices; a one added at each. -/
abbrev opsC : List (HloOp τ sig (Elt F)) :=
  [ nullary main_c_1 (constantI S_ 32 0#32),
    unary main_c_1 main_v5 (broadcastInDim S131072 ![] bcast_S_S131072 : (⟨S_, .i32⟩ : BufTy).Contents (Elt F) → (⟨S131072, .i32⟩ : BufTy).Contents (Elt F)),
    nullary main_c_2 (constantI S_ 32 0#32),
    unary main_c_2 main_v6 (broadcastInDim S64 ![] bcast_S_S64 : (⟨S_, .i32⟩ : BufTy).Contents (Elt F) → (⟨S64, .i32⟩ : BufTy).Contents (Elt F)),
    binary main_v4 main_v6 main_v7 (cmpi .slt : (⟨S64, .i32⟩ : BufTy).Contents (Elt F) → (⟨S64, .i32⟩ : BufTy).Contents (Elt F) → (⟨S64, .i1⟩ : BufTy).Contents (Elt F)),
    nullary main_c_3 (constantI S_ 32 131072#32),
    unary main_c_3 main_v8 (broadcastInDim S64 ![] bcast_S_S64 : (⟨S_, .i32⟩ : BufTy).Contents (Elt F) → (⟨S64, .i32⟩ : BufTy).Contents (Elt F)),
    binary main_v4 main_v8 main_v9 (addi : (⟨S64, .i32⟩ : BufTy).Contents (Elt F) → (⟨S64, .i32⟩ : BufTy).Contents (Elt F) → (⟨S64, .i32⟩ : BufTy).Contents (Elt F)),
    ternary main_v7 main_v9 main_v4 main_v10 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    unary main_v10 main_v11 (broadcastInDim S64x1 ![0] bcast_S64_S64x1_0 : (⟨S64, .i32⟩ : BufTy).Contents (Elt F) → (⟨S64x1, .i32⟩ : BufTy).Contents (Elt F)),
    nullary main_c_4 (constantI S_ 32 1#32),
    unary main_c_4 main_v12 (broadcastInDim S64 ![] bcast_S_S64 : (⟨S_, .i32⟩ : BufTy).Contents (Elt F) → (⟨S64, .i32⟩ : BufTy).Contents (Elt F)),
    ternary main_v5 main_v11 main_v12 main_v13
      ((fun x i u => Host.scatter scatter_S131072_S64x1_S64_n_0_0_1 IntOp.addi x i u) : (⟨S131072, .i32⟩ : BufTy).Contents (Elt F) → (⟨S64x1, .i32⟩ : BufTy).Contents (Elt F) → (⟨S64, .i32⟩ : BufTy).Contents (Elt F) → (⟨S131072, .i32⟩ : BufTy).Contents (Elt F)) ]

theorem opsC_sub : (opsC : List (HloOp τ sig (Elt F))).Forall fun op => op.bufs ⊆ tcRefs τ sig :=
  ⟨nullary_bufs_sub .., unary_bufs_sub .., nullary_bufs_sub .., unary_bufs_sub .., binary_bufs_sub .., nullary_bufs_sub ..,
    unary_bufs_sub .., binary_bufs_sub .., ternary_bufs_sub .., unary_bufs_sub .., nullary_bufs_sub .., unary_bufs_sub ..,
    ternary_bufs_sub ..⟩

/-- The rank: the marks' inclusive prefix sum (a zero, its rank-0 broadcast, the windowed sum over all rows), less one. -/
abbrev opsD : List (HloOp τ sig (Elt F)) :=
  [ TRef.nullary main_call2.call0.c (constantI S_ 32 0#32),
    TRef.unary main_call2.call0.c main_call2.call0.v0 (broadcastInDim S_ ![] bcast_S_S_),
    TRef.binary (.of main_v13 : TRef sig ⟨S131072, .i32⟩) main_call2.call0.v0 main_call2.call0.v1
      (fun x v => Host.reduceWindow IntOp.addi ![131072] ![1] ![131071] ![0] x v reduceWindows_S131072_S131072_w131072s1p131071_0 h_S_),
    nullary main_c_5 (constantI S_ 32 1#32),
    unary main_c_5 main_v15 (broadcastInDim S131072 ![] bcast_S_S131072 : (⟨S_, .i32⟩ : BufTy).Contents (Elt F) → (⟨S131072, .i32⟩ : BufTy).Contents (Elt F)),
    binary main_v14 main_v15 main_v16 (subi : (⟨S131072, .i32⟩ : BufTy).Contents (Elt F) → (⟨S131072, .i32⟩ : BufTy).Contents (Elt F) → (⟨S131072, .i32⟩ : BufTy).Contents (Elt F)) ]

theorem opsD_sub : (opsD : List (HloOp τ sig (Elt F))).Forall fun op => op.bufs ⊆ tcRefs τ sig :=
  ⟨nullary_bufs_sub .., unary_bufs_sub .., binary_bufs_sub .., nullary_bufs_sub .., unary_bufs_sub .., binary_bufs_sub ..⟩

/-- The clamped take of `0 … 63` at the rank: a negative rank moved up by 64, the ranks as a column of indices, the test
    `0 ≤ · ≤ 63` on that column reduced along it, the gather, and the least word wherever the test fails. -/
abbrev opsE : List (HloOp τ sig (Elt F)) :=
  [ TRef.nullary main_call3.c (constantI S_ 32 0#32),
    TRef.unary main_call3.c main_call3.v0 (broadcastInDim S131072 ![] bcast_S_S131072),
    TRef.binary (.of main_v16 : TRef sig ⟨S131072, .i32⟩) main_call3.v0 main_call3.v1 (cmpi .slt),
    TRef.nullary main_call3.c_0 (constantI S_ 32 64#32),
    TRef.unary main_call3.c_0 main_call3.v2 (broadcastInDim S131072 ![] bcast_S_S131072),
    TRef.binary (.of main_v16 : TRef sig ⟨S131072, .i32⟩) main_call3.v2 main_call3.v3 addi,
    TRef.ternary main_call3.v1 main_call3.v3 (.of main_v16 : TRef sig ⟨S131072, .i32⟩) main_call3.call0.v0 select,
    TRef.unary main_call3.call0.v0 main_call3.v5 (broadcastInDim S131072x1 ![0] bcast_S131072_S131072x1_0),
    TRef.nullary main_call3.c_1 (constantI S1 32 63#32),
    TRef.nullary main_call3.c_2 (constantI S_ 32 0#32),
    TRef.unary main_call3.c_2 main_call3.v6 (broadcastInDim S131072x1 ![] bcast_S_S131072x1),
    TRef.binary main_call3.v5 main_call3.v6 main_call3.v7 (cmpi .sge),
    TRef.unary main_call3.c_1 main_call3.v8 (broadcastInDim S1x1 ![1] bcast_S1_S1x1_1),
    TRef.unary main_call3.v8 main_call3.v9 (broadcastInDim S131072x1 ![0, 1] bcast_S1x1_S131072x1_0_1),
    TRef.binary main_call3.v5 main_call3.v9 main_call3.v10 (cmpi .sle),
    TRef.binary main_call3.v7 main_call3.v10 main_call3.v11 andi,
    TRef.nullary main_call3.c_3 (constantI S_ 1 1#1),
    TRef.binary main_call3.v11 main_call3.c_3 main_call3.v12
      (fun x v => Host.reduce IntOp.andi x v reducesTo_S131072x1_S131072_d1 h_S_),
    TRef.binary (.of main_v0 : TRef sig ⟨S64, .i32⟩) main_call3.v5 main_call3.v13
      (fun x i => Host.gather gather_S64_S131072x1_S131072_n_0_n_n_0_1_1 x i),
    TRef.nullary main_call3.c_4 (constantI S_ 32 2147483648#32),
    TRef.unary main_call3.c_4 main_call3.v14 (broadcastInDim S131072 ![] bcast_S_S131072),
    TRef.ternary main_call3.v12 main_call3.v13 main_call3.v14 main_call3.v15 select ]

theorem opsE_sub : (opsE : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., nullary_bufs_sub .., unary_bufs_sub .., ternary_bufs_sub ..⟩

/-- The bags' sums and the quotient: a zero table, the bag numbers as a column of indices, the rows added into their
    bags; the counts as a column, as floats, along the 512 columns; the division. -/
abbrev opsF : List (HloOp τ sig (Elt F)) :=
  [ nullary main_cst (constant S_ .f32 0x00000000#32),
    unary main_cst main_v18 (broadcastInDim S64x512 ![] bcast_S_S64x512 : (⟨S_, .f32⟩ : BufTy).Contents (Elt F) → (⟨S64x512, .f32⟩ : BufTy).Contents (Elt F)),
    unary main_v17 main_v19 (broadcastInDim S131072x1 ![0] bcast_S131072_S131072x1_0 : (⟨S131072, .i32⟩ : BufTy).Contents (Elt F) → (⟨S131072x1, .i32⟩ : BufTy).Contents (Elt F)),
    ternary main_v18 main_v19 main_arg0 main_v20
      ((fun x i u => Host.scatterAdd scatter_S64x512_S131072x1_S131072x512_1_0_0_1 x i u) : (⟨S64x512, .f32⟩ : BufTy).Contents (Elt F) → (⟨S131072x1, .i32⟩ : BufTy).Contents (Elt F) → (⟨S131072x512, .f32⟩ : BufTy).Contents (Elt F) → (⟨S64x512, .f32⟩ : BufTy).Contents (Elt F)),
    unary main_arg1 main_v21 (broadcastInDim S64x1 ![0] bcast_S64_S64x1_0 : (⟨S64, .i32⟩ : BufTy).Contents (Elt F) → (⟨S64x1, .i32⟩ : BufTy).Contents (Elt F)),
    unary main_v21 main_v22 (sitofp .f32 : (⟨S64x1, .i32⟩ : BufTy).Contents (Elt F) → (⟨S64x1, .f32⟩ : BufTy).Contents (Elt F)),
    unary main_v22 main_v23 (broadcastInDim S64x512 ![0, 1] bcast_S64x1_S64x512_0_1 : (⟨S64x1, .f32⟩ : BufTy).Contents (Elt F) → (⟨S64x512, .f32⟩ : BufTy).Contents (Elt F)),
    binary main_v20 main_v23 main_v24 (Host.divf : (⟨S64x512, .f32⟩ : BufTy).Contents (Elt F) → (⟨S64x512, .f32⟩ : BufTy).Contents (Elt F) → (⟨S64x512, .f32⟩ : BufTy).Contents (Elt F)) ]

theorem opsF_sub : (opsF : List (HloOp τ sig (Elt F))).Forall fun op => op.bufs ⊆ tcRefs τ sig :=
  ⟨nullary_bufs_sub .., unary_bufs_sub .., unary_bufs_sub .., ternary_bufs_sub .., unary_bufs_sub .., unary_bufs_sub ..,
    unary_bufs_sub .., binary_bufs_sub ..⟩

/-- @main's sixty operations, in order. -/
abbrev ops : List (HloOp τ sig (Elt F)) := opsA ++ (opsB ++ (opsC ++ (opsD ++ (opsE ++ opsF))))

-- sixty binds re-associated: the rewrite under the chain recurses once per statement
set_option maxRecDepth 2048 in
/-- @main is that straight line: the helpers' definitions unfolded at their calls, both sides are one chain of
    host steps once the sequencing is re-associated. -/
theorem main_eq (c : Dev nD) : main (F := F) c = seq ops := by
  simp only [main, fn_roll_static.body, fn_cumsum.body, fn_cumsum_0.body, fn_cumsum_1.body, fn_cumsum_2.body,
    fn_where.body, fn_take.body, ops, opsA, opsB, opsC, opsD, opsE, opsF, List.cons_append, List.nil_append, seq,
    bind_assoc, pure_bind]

/-- Every operation touches only the device's own tensor buffers. -/
theorem ops_sub : (ops : List (HloOp τ sig (Elt F))).Forall fun op => op.bufs ⊆ tcRefs τ sig := by
  simp only [ops, List.forall_append]
  exact ⟨opsA_sub, opsB_sub, opsC_sub, opsD_sub, opsE_sub, opsF_sub⟩

/-- The signature scopes no buffer and no semaphore: every value of the program is a tensor in device memory. -/
theorem scopedRefs_eq : (Finset.univ.filter fun b : Ref sig .tc => b.isScoped) = ∅ := by decide
theorem scopedSems_eq : (Finset.univ.filter fun sm : SemLoc sig => sm.isScoped .tc) = ∅ := by decide

/-- The fold over two lines run one after the other is the second's fold over the first's. -/
theorem after_join : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_join l₁ l₂]

/-! ## Each stretch read back

Over any contents `W` of the buffers: the buffer a stretch completes holds the named value of what the stretch
reads, and a buffer it does not write holds what it held. The prefix sums, the scatters, the gather and the
reduction stay closed throughout: no equation here looks inside them. -/

attribute [local irreducible] Host.reduce Host.gather Host.scatter Host.reduceWindow Host.scatterAdd

/-- A buffer none of the stretch's operations writes: the fold unrolled, every operation leaves it. -/
local macro "kept" : tactic => `(tactic| (simp only [after_cons, after_nil]; rfl))

/-- The value a stretch completes: each operation's result at its own buffer is its function of what it reads, a
    typed reference's transport at a literal buffer is the identity. -/
local macro "read_back" : tactic =>
  `(tactic| (after_results_simp <;> try simp only [TRef.ofBuf, TRef.toBuf, cast_eq]))

theorem stA_v3 (V : Valuation τ sig (Elt F)) : after opsA V (Proc.devRef .tc main_v3) = excl (V (Proc.devRef .tc main_arg1)) := by
  read_back; rfl
theorem stA_v0 (V : Valuation τ sig (Elt F)) : after opsA V (Proc.devRef .tc main_v0) = iotaInDim S64 32 0 := by
  read_back
theorem keepA_arg0 (W : Valuation τ sig (Elt F)) : after opsA W (Proc.devRef .tc main_arg0) = W (Proc.devRef .tc main_arg0) := by kept
theorem keepA_arg1 (W : Valuation τ sig (Elt F)) : after opsA W (Proc.devRef .tc main_arg1) = W (Proc.devRef .tc main_arg1) := by kept

theorem stB (W : Valuation τ sig (Elt F)) (cnt : IVec S64 32) (h3 : W (Proc.devRef .tc main_v3) = excl cnt) :
    after opsB W (Proc.devRef .tc main_v4) = starts cnt := by
  read_back; rw [h3]; rfl
theorem keepB_v0 (W : Valuation τ sig (Elt F)) : after opsB W (Proc.devRef .tc main_v0) = W (Proc.devRef .tc main_v0) := by kept
theorem keepB_arg0 (W : Valuation τ sig (Elt F)) : after opsB W (Proc.devRef .tc main_arg0) = W (Proc.devRef .tc main_arg0) := by kept
theorem keepB_arg1 (W : Valuation τ sig (Elt F)) : after opsB W (Proc.devRef .tc main_arg1) = W (Proc.devRef .tc main_arg1) := by kept

theorem stC (W : Valuation τ sig (Elt F)) (cnt : IVec S64 32) (h4 : W (Proc.devRef .tc main_v4) = starts cnt) :
    after opsC W (Proc.devRef .tc main_v13) = marks cnt := by
  read_back; rw [h4]; rfl
theorem keepC_v0 (W : Valuation τ sig (Elt F)) : after opsC W (Proc.devRef .tc main_v0) = W (Proc.devRef .tc main_v0) := by kept
theorem keepC_arg0 (W : Valuation τ sig (Elt F)) : after opsC W (Proc.devRef .tc main_arg0) = W (Proc.devRef .tc main_arg0) := by kept
theorem keepC_arg1 (W : Valuation τ sig (Elt F)) : after opsC W (Proc.devRef .tc main_arg1) = W (Proc.devRef .tc main_arg1) := by kept

theorem stD (W : Valuation τ sig (Elt F)) (cnt : IVec S64 32) (h13 : W (Proc.devRef .tc main_v13) = marks cnt) :
    after opsD W (Proc.devRef .tc main_v16) = rank cnt := by
  read_back; rw [h13]; rfl
theorem keepD_v0 (W : Valuation τ sig (Elt F)) : after opsD W (Proc.devRef .tc main_v0) = W (Proc.devRef .tc main_v0) := by kept
theorem keepD_arg0 (W : Valuation τ sig (Elt F)) : after opsD W (Proc.devRef .tc main_arg0) = W (Proc.devRef .tc main_arg0) := by kept
theorem keepD_arg1 (W : Valuation τ sig (Elt F)) : after opsD W (Proc.devRef .tc main_arg1) = W (Proc.devRef .tc main_arg1) := by kept

theorem stE (W : Valuation τ sig (Elt F)) (cnt : IVec S64 32) (h0 : W (Proc.devRef .tc main_v0) = iotaInDim S64 32 0)
    (h16 : W (Proc.devRef .tc main_v16) = rank cnt) : after opsE W (Proc.devRef .tc main_v17) = segIds cnt := by
  read_back; rw [h0, h16]; rfl
theorem keepE_arg0 (W : Valuation τ sig (Elt F)) : after opsE W (Proc.devRef .tc main_arg0) = W (Proc.devRef .tc main_arg0) := by kept
theorem keepE_arg1 (W : Valuation τ sig (Elt F)) : after opsE W (Proc.devRef .tc main_arg1) = W (Proc.devRef .tc main_arg1) := by kept

theorem stF (W : Valuation τ sig (Elt F)) (x : FVec F S131072x512 .f32) (cnt : IVec S64 32)
    (h17 : W (Proc.devRef .tc main_v17) = segIds cnt) (ha0 : W (Proc.devRef .tc main_arg0) = x) (ha1 : W (Proc.devRef .tc main_arg1) = cnt) :
    after opsF W (Proc.devRef .tc main_v24) = refVal x cnt := by
  read_back; rw [h17, ha0, ha1]; rfl
theorem keepF_arg0 (W : Valuation τ sig (Elt F)) : after opsF W (Proc.devRef .tc main_arg0) = W (Proc.devRef .tc main_arg0) := by kept
theorem keepF_arg1 (W : Valuation τ sig (Elt F)) : after opsF W (Proc.devRef .tc main_arg1) = W (Proc.devRef .tc main_arg1) := by kept

/-! ## The whole line -/

/-- Read at the result buffer the fold of the sixty operations is `refVal` of the arguments: stretch by stretch, each
    named value from the one before it, the row numbers and the two arguments carried unchanged to where they are
    read. -/
theorem out_eq (V : Valuation τ sig (Elt F)) :
    after ops V (Proc.devRef .tc main_v24) = refVal (V (Proc.devRef .tc main_arg0)) (V (Proc.devRef .tc main_arg1)) := by
  simp only [ops, after_join]
  refine stF _ _ _ (stE _ _ ?_ (stD _ _ (stC _ _ (stB _ _ (stA_v3 V))))) ?_ ?_
  · rw [keepD_v0, keepC_v0, keepB_v0, stA_v0]
  · rw [keepE_arg0, keepD_arg0, keepC_arg0, keepB_arg0, keepA_arg0]
  · rw [keepE_arg1, keepD_arg1, keepC_arg1, keepB_arg1, keepA_arg1]

/-- No operation writes the first argument. -/
theorem arg0_eq (V : Valuation τ sig (Elt F)) : after ops V (Proc.devRef .tc main_arg0) = V (Proc.devRef .tc main_arg0) := by
  simp only [ops, after_join]
  rw [keepF_arg0, keepE_arg0, keepD_arg0, keepC_arg0, keepB_arg0, keepA_arg0]

/-- No operation writes the second argument. -/
theorem arg1_eq (V : Valuation τ sig (Elt F)) : after ops V (Proc.devRef .tc main_arg1) = V (Proc.devRef .tc main_arg1) := by
  simp only [ops, after_join]
  rw [keepF_arg1, keepE_arg1, keepD_arg1, keepC_arg1, keepB_arg1, keepA_arg1]

/-- Every execution of @main terminates with each buffer at the fold of the operations over the launch contents. -/
theorem run_main (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ

end RefRun

theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v24)
          = refVal (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c main_v24).trans (RefRun.out_eq _), (h c main_arg0).trans (RefRun.arg0_eq _),
      (h c main_arg1).trans (RefRun.arg1_eq _)⟩) (RefRun.run_main m ρ)

end Cert.ReferenceIdeal.Hand

end
-- ==== Proof.LibScatterAddInt.lean ====
/-
  An integer scatter whose body adds: since word addition is associative and commutative the left fold over the update
  indices is, at each element, that element plus the sum of the updates landing on it.
-/
import Idealize.ShloMosaic.PureOps
import Mathlib.Data.BitVec

noncomputable section

open scoped BigOperators

namespace Cert.LibScatterAddInt

open Idealize.ShloMosaic

/-- One step of an adding scatter: the update `n`, landing at `tgt n` when that is an element, is added there and
    nothing else changes; an update landing nowhere changes nothing. -/
def addStep {ι : Type} {s : Shape} (tgt : ι → Option s.Idx) (val : ι → BitVec 32) (r : s.Idx → BitVec 32) (n : ι) :
    s.Idx → BitVec 32 :=
  match tgt n with
  | some i => fun i' => if i' = i then IntOp.addi (r i) (val n) else r i'
  | none => r

/-- After the adding steps of a list of updates, element `i` holds its starting word plus the sum, over the list, of
    the updates landing on `i` (by induction on the list; word addition is associative). -/
theorem foldl_addStep {ι : Type} {s : Shape} (tgt : ι → Option s.Idx) (val : ι → BitVec 32) (L : List ι)
    (r : s.Idx → BitVec 32) (i : s.Idx) :
    L.foldl (addStep tgt val) r i = r i + (L.map fun n => if tgt n = some i then val n else 0).sum := by
  induction L generalizing r with
  | nil => simp
  | cons a L ih =>
    rw [List.foldl_cons, ih, List.map_cons, List.sum_cons, ← add_assoc]
    congr 1
    unfold addStep
    cases hta : tgt a with
    | none => simp
    | some k =>
      by_cases hik : i = k
      · subst hik
        simp only [if_true]
        rfl
      · have hne : ¬ (some k = some i) := fun e => hik (Option.some.inj e).symm
        simp only [if_neg hik, if_neg hne, add_zero]

/-- `Host.scatter` with the adding body, at element `i`: the operand's word plus the sum of the updates whose result
    index is `i`. -/
theorem scatter_addi_apply {s si u : Shape} {w : ℕ} (d : ScatterDims s si u) (x : s.Idx → BitVec 32) (idx : IVec si w)
    (upd : u.Idx → BitVec 32) (i : s.Idx) :
    Host.scatter d IntOp.addi x idx upd i
      = x i + ∑ j ∈ Finset.univ.filter (fun j => d.resultIdx? j idx = some i), upd j := by
  have hfold : Host.scatter d IntOp.addi x idx upd
      = (List.finRange u.numel).foldl
          (addStep (fun n => d.resultIdx? (u.rowMajor.symm n) idx) (fun n => upd (u.rowMajor.symm n))) x := rfl
  rw [hfold, foldl_addStep, ← List.ofFn_eq_map, List.sum_ofFn]
  congr 1
  -- the update positions in row-major order are all the update indices, each once
  rw [Equiv.sum_comp u.rowMajor.symm (fun j => if d.resultIdx? j idx = some i then upd j else 0), Finset.sum_filter]

end Cert.LibScatterAddInt

end
-- ==== Proof.RefStarts.lean ====
/-
  The first half of the reference's ranking: the bags' starting rows are the prefix sums of the counts, and the mark
  vector counts, at each row, the bags that start there.
-/
import proofs.«412226_j44435731644653_3_alg».proof.Proof.RefVal
import proofs.«412226_j44435731644653_3_alg».proof.Proof.SpecLemmas
import proofs.«412226_j44435731644653_3_alg».proof.Proof.LibCumsum
import proofs.«412226_j44435731644653_3_alg».proof.Proof.LibScatterAddInt
import Idealize.ShloMosaic.Lib.Pipeline.Value
import Idealize.ShloMosaic.Lib.StableHlo.Predicate
import Mathlib.Algebra.BigOperators.Ring.Finset

noncomputable section

open scoped BigOperators

namespace Cert.ReferenceIdeal.Hand

open Idealize.ShloMosaic Idealize.ShloMosaic.ValueIdx Cert.ReferenceIdeal Cert.ReferenceIdeal.Facts₀

/-- A fold over the positions below `n` when `n` is one is the single step at position zero. -/
theorem foldl_finRange_one {n : ℕ} (hn : n = 1) {β : Type} (f : β → Fin n → β) (x : β) :
    (List.finRange n).foldl f x = f x ⟨0, by omega⟩ := by
  subst hn
  rfl

/-- The set-scatter of the reference's shifted counts has one update, and with a zero index word it lands on place 0:
    the start is the word read signed, the window contributes nothing on the one (inserted) axis. -/
theorem excl_resultIdx (j : S_.Idx) (idx : IVec S1 32) (h0 : ∀ k, idx k = 0#32) :
    scatter_S64_S1_S__n_0_0_0.resultIdx? j idx = some (ix1 (0 : Fin 64)) := by
  have hs : ∀ a : Fin S64.rank, scatter_S64_S1_S__n_0_0_0.start j idx a = 0 := by
    intro a
    unfold ScatterDims.start
    split_ifs
    · rw [h0]; rfl
    · rfl
  have hw : ∀ a : Fin S64.rank, scatter_S64_S1_S__n_0_0_0.window j a = 0 := by
    intro a
    unfold ScatterDims.window
    rw [dif_neg]
    show a ∉ S64.kept [0]
    revert a
    decide
  have hsz : ∀ a : Fin S64.rank, S64.size a = 64 := by
    intro a
    match a with
    | ⟨0, _⟩ => rfl
  unfold ScatterDims.resultIdx?
  rw [dif_pos (fun a => by rw [hs a, hw a, hsz a]; omega)]
  congr 1
  funext a
  apply Fin.ext
  match a with
  | ⟨0, _⟩ =>
    show (scatter_S64_S1_S__n_0_0_0.start j idx 0 + (scatter_S64_S1_S__n_0_0_0.window j 0 : ℤ)).toNat = 0
    rw [hs 0, hw 0]; rfl

/-- The reference's shifted counts, with the fold of its one update carried out: place 0 is overwritten by the zero
    update, every other place keeps the rolled counts. -/
theorem excl_eq (cnt : IVec S64 32) (i : S64.Idx) :
    excl cnt i = if i = ix1 (0 : Fin 64) then 0#32
      else concatenate S64 0 [⟨S1, extractStridedSlice S1 ![63] cnt slices_S64_S1_63⟩,
        ⟨S63, extractStridedSlice S63 ![0] cnt slices_S64_S63_0⟩] concatenates_S1_S63_S64_d0 i := by
  unfold excl Host.scatter
  rw [foldl_finRange_one (rfl : S_.numel = 1)]
  rw [excl_resultIdx]
  · rfl
  · intro k
    rfl

/-- The shifted counts have a zero in front. -/
theorem excl_zero (cnt : IVec S64 32) : excl cnt (ix1 (0 : Fin 64)) = 0#32 := by
  rw [excl_eq, if_pos rfl]

/-- Place `i + 1` of the shifted counts is the count of bag `i`: the place falls in the second part of the
    concatenation, which is the counts' first 63 places. -/
theorem excl_succ (cnt : IVec S64 32) (i : Fin 63) : excl cnt (ix1 i.succ) = cnt (ix1 i.castSucc) := by
  have hne : ix1 i.succ ≠ ix1 (0 : Fin 64) := by
    intro hc
    have := congrArg (fun f => (f 0).val) hc
    simp at this
  rw [excl_eq, if_neg hne]
  refine (Idealize.ShloMosaic.concatenate_pair_apply_right (0 : Fin S64.rank) _ _ concatenates_S1_S63_S64_d0 (ix1 i.succ) rfl rfl (ix1 i)
    (fun b hb => ?_) ?_).trans ?_
  · exfalso
    apply hb
    match b with
    | ⟨0, _⟩ => rfl
  · show i.val + 1 = i.val + 1
    rfl
  · refine Idealize.ShloMosaic.extractStridedSlice_apply _ cnt slices_S64_S63_0 (ix1 i) (ix1 i.castSucc) (fun a => ?_)
    match a with
    | ⟨0, _⟩ =>
      show i.val = 0 + i.val
      omega

/-- Bag `j` starts at the word-level prefix sum of the counts before it. -/
theorem starts_eq (cnt : IVec S64 32) (j : Fin 64) : starts cnt (ix1 j) = Cert.Seg.boff cnt j.val := by
  unfold starts
  -- the window reduction is the inclusive prefix sum of the shifted counts
  rw [Cert.LibCumsum.cumsum_apply (N := 64) (P := 63) rfl (excl cnt) zeroInit reduceWindows_S64_S64_w64s1p63_0 h_S_ rfl j]
  unfold Cert.Seg.boff
  -- split off the first place on the left (a zero) and the last place on the right (never before bag `j`)
  rw [Fin.sum_univ_succ, Fin.sum_univ_castSucc (n := 63)]
  have hj := j.isLt
  have h0 : (if (0 : Fin 64).val ≤ j.val then excl cnt (ix1 (0 : Fin 64)) else 0) = 0 := by
    rw [excl_zero]; simp
  have hl : (if (Fin.last 63).val < j.val then cnt (ix1 (Fin.last 63)) else 0) = 0 := by
    rw [if_neg]
    simp only [Fin.val_last]
    omega
  rw [h0, hl, zero_add, add_zero]
  -- the remaining places correspond one to one: place `i + 1` holds the count of bag `i`
  refine Finset.sum_congr rfl (fun i _ => ?_)
  rw [excl_succ]
  by_cases hc : i.val < j.val
  · rw [if_pos (by simp only [Fin.val_succ]; omega), if_pos (by simpa using hc)]
  · rw [if_neg (by simp only [Fin.val_succ]; omega), if_neg (by simpa using hc)]

/-- Every coordinate of a rank-one index is its one coordinate. -/
theorem ix1_val {n : ℕ} (k : Fin n) (x : Fin 1) : ((ix1 k) x).val = k.val := by
  match x with
  | ⟨0, _⟩ => rfl

/-- The marking scatter reads update `k`'s start off the index column at row `k`: the index column is the
    vector `v` broadcast along a unit axis, so the start on the one operand axis is the word `v k` read signed. -/
theorem marks_start (v : IVec S64 32) (k : Fin 64) (a : Fin S131072.rank) :
    scatter_S131072_S64x1_S64_n_0_0_1.start (ix1 k) (broadcastInDim S64x1 ![0] bcast_S64_S64x1_0 v) a = (v (ix1 k)).toInt := by
  unfold ScatterDims.start
  rw [dif_pos (by match a with | ⟨0, _⟩ => exact List.mem_singleton.2 rfl)]
  congr 1
  refine Idealize.ShloMosaic.broadcastInDim_apply _ bcast_S64_S64x1_0 v _ (ix1 k) (fun a' => ?_)
  match a' with
  | ⟨0, _⟩ =>
    rw [if_neg (by decide +revert)]
    -- the scatter-index coordinate on the axis that is not the index vector's is the update's one coordinate
    unfold ScatterDims.siIdx
    rw [dif_neg (by decide +revert)]
    unfold ScatterDims.siCoord
    exact (ix1_val k _).symm

/-- The one operand axis is an inserted axis: the update has no window coordinate on it. -/
theorem marks_window (j : S64.Idx) (a : Fin S131072.rank) : scatter_S131072_S64x1_S64_n_0_0_1.window j a = 0 := by
  unfold ScatterDims.window
  rw [dif_neg]
  show a ∉ S131072.kept [0]
  revert a
  decide

/-- Update `k` of the marking scatter lands on row `t` exactly when the word `v k`, read signed, is `t`
    (a word outside `0 … 131071` lands nowhere, and is no row either). -/
theorem marks_resultIdx (v : IVec S64 32) (k : Fin 64) (t : Fin 131072) :
    scatter_S131072_S64x1_S64_n_0_0_1.resultIdx? (ix1 k) (broadcastInDim S64x1 ![0] bcast_S64_S64x1_0 v) = some (ix1 t) ↔ (v (ix1 k)).toInt = (t.val : ℤ) := by
  have hsz : ∀ a : Fin S131072.rank, S131072.size a = 131072 := by
    intro a
    match a with
    | ⟨0, _⟩ => rfl
  have ht := t.isLt
  unfold ScatterDims.resultIdx?
  by_cases hc : ∀ a, 0 ≤ scatter_S131072_S64x1_S64_n_0_0_1.start (ix1 k) (broadcastInDim S64x1 ![0] bcast_S64_S64x1_0 v) a + (scatter_S131072_S64x1_S64_n_0_0_1.window (ix1 k) a : ℤ)
      ∧ scatter_S131072_S64x1_S64_n_0_0_1.start (ix1 k) (broadcastInDim S64x1 ![0] bcast_S64_S64x1_0 v) a + (scatter_S131072_S64x1_S64_n_0_0_1.window (ix1 k) a : ℤ) < (S131072.size a : ℤ)
  · rw [dif_pos hc]
    have h0 := hc 0
    rw [marks_start, marks_window, hsz] at h0
    constructor
    · intro he
      have he' := congrArg (fun f => (f 0).val) (Option.some.inj he)
      change (scatter_S131072_S64x1_S64_n_0_0_1.start (ix1 k) (broadcastInDim S64x1 ![0] bcast_S64_S64x1_0 v) 0 + (scatter_S131072_S64x1_S64_n_0_0_1.window (ix1 k) 0 : ℤ)).toNat = t.val at he'
      rw [marks_start, marks_window] at he'
      omega
    · intro hv
      congr 1
      funext a
      apply Fin.ext
      match a with
      | ⟨0, _⟩ =>
        show (scatter_S131072_S64x1_S64_n_0_0_1.start (ix1 k) (broadcastInDim S64x1 ![0] bcast_S64_S64x1_0 v) 0 + (scatter_S131072_S64x1_S64_n_0_0_1.window (ix1 k) 0 : ℤ)).toNat = t.val
        rw [marks_start, marks_window]
        omega
  · rw [dif_neg hc]
    constructor
    · intro he
      exact absurd he (by simp)
    · intro hv
      exfalso
      apply hc
      intro a
      rw [marks_start, marks_window, hsz]
      omega

/-- Under admissible counts every starting row is at most 131072, far below 2 ^ 31, so the word is not negative and the
    wrap of negative words leaves it alone. -/
theorem startsWrapped_eq (cnt : IVec S64 32) (h : Cert.Seg.Ok cnt) (j : Fin 64) :
    startsWrapped cnt (ix1 j) = starts cnt (ix1 j) := by
  have hlt : (starts cnt (ix1 j)).toNat < 2 ^ 31 := by
    rw [starts_eq, Cert.Seg.toNat_boff h]
    have := Cert.Seg.off_le_total cnt j.val
    rw [h.total] at this
    omega
  unfold startsWrapped select
  show Scalar.select (IntOp.cmpi .slt (starts cnt (ix1 j)) 0#32) _ _ = _
  unfold Scalar.select
  rw [if_neg]
  intro hc
  have := (Idealize.ShloMosaic.StableHlo.Predicate.slt_iff_toNat hlt (by decide)).1 hc
  simp at this

/-- Under admissible counts the mark at row `t` is the number of bags that start at row `t`. -/
theorem marks_eq (cnt : IVec S64 32) (h : Cert.Seg.Ok cnt) (t : Fin 131072) :
    marks cnt (ix1 t) = BitVec.ofNat 32 (Finset.univ.filter fun j : Fin 64 => Cert.Seg.off cnt j.val = t.val).card := by
  unfold marks
  -- an adding scatter: the mark is its initial zero plus the sum of the updates (ones) that land on the row
  rw [Cert.LibScatterAddInt.scatter_addi_apply, Finset.sum_filter]
  show (0#32 : BitVec 32) + (∑ j : S64.Idx, if scatter_S131072_S64x1_S64_n_0_0_1.resultIdx? j (broadcastInDim S64x1 ![0] bcast_S64_S64x1_0 (startsWrapped cnt)) = some (ix1 t)
    then (1 : BitVec 32) else 0) = _
  rw [BitVec.zero_add]
  -- number the updates by their one coordinate
  refine ((Equiv.sum_comp (Cert.LibCumsum.ix1Equiv 64) _).symm).trans ?_
  -- a sum of ones over the bags that start at the row is their number
  refine Eq.trans ?_ ((Finset.sum_boole (fun k : Fin 64 => Cert.Seg.off cnt k.val = t.val) Finset.univ).trans
    (BitVec.natCast_eq_ofNat _ _))
  refine Finset.sum_congr rfl (fun k _ => ?_)
  -- update `k` lands on row `t` exactly when bag `k` starts there: its start word is the prefix sum, which does not wrap
  have hk : (scatter_S131072_S64x1_S64_n_0_0_1.resultIdx? (ix1 k) (broadcastInDim S64x1 ![0] bcast_S64_S64x1_0 (startsWrapped cnt)) = some (ix1 t))
      ↔ Cert.Seg.off cnt k.val = t.val := by
    rw [marks_resultIdx, startsWrapped_eq cnt h, starts_eq]
    have hb := Cert.Seg.toNat_boff h k.val
    have hle := Cert.Seg.off_le_total cnt k.val
    rw [h.total] at hle
    rw [Idealize.ShloMosaic.StableHlo.Predicate.toInt_eq_toNat_of_lt (by omega), hb]
    omega
  show (if scatter_S131072_S64x1_S64_n_0_0_1.resultIdx? (ix1 k) (broadcastInDim S64x1 ![0] bcast_S64_S64x1_0 (startsWrapped cnt)) = some (ix1 t)
    then (1 : BitVec 32) else 0) = _
  by_cases hc : Cert.Seg.off cnt k.val = t.val
  · rw [if_pos (hk.2 hc), if_pos hc]
  · rw [if_neg (fun hx => hc (hk.1 hx)), if_neg hc]

end Cert.ReferenceIdeal.Hand

end
-- ==== Proof.RefRank.lean ====
/-
  The second half of the reference's ranking: the prefix sum of the marks counts the bags that start at or before a row,
  and the take from `0 … 63` at that count less one returns it unchanged, so a row's bag word is that count less one.
-/
import proofs.«412226_j44435731644653_3_alg».proof.Proof.RefStarts
import Idealize.ShloMosaic.Lib.StableHlo.Predicate
import Idealize.ShloMosaic.PureOps.Reduce

noncomputable section

open scoped BigOperators

namespace Cert.ReferenceIdeal.Hand

open Idealize.ShloMosaic Idealize.ShloMosaic.ValueIdx Cert.ReferenceIdeal Cert.ReferenceIdeal.Facts₀

/-- Counting, row by row up to row `T`, the bags whose start is that row counts the bags whose start is at most `T`:
    each such bag is met at exactly one row, its start, which is a row because it is at most `T`. -/
private theorem sum_fiber_card {N : ℕ} (f : Fin 64 → ℕ) (T : ℕ) (hT : T < N) :
    (∑ i : Fin N, if i.val ≤ T then (Finset.univ.filter fun j : Fin 64 => f j = i.val).card else 0)
      = (Finset.univ.filter fun j : Fin 64 => f j ≤ T).card := by
  have h1 : ∀ i : Fin N, (if i.val ≤ T then (Finset.univ.filter fun j : Fin 64 => f j = i.val).card else 0)
      = ∑ j : Fin 64, if (i.val ≤ T ∧ f j = i.val) then 1 else 0 := by
    intro i
    rw [Finset.card_filter]
    by_cases hc : i.val ≤ T
    · rw [if_pos hc]
      refine Finset.sum_congr rfl (fun j _ => ?_)
      by_cases hj : f j = i.val
      · rw [if_pos hj, if_pos ⟨hc, hj⟩]
      · rw [if_neg hj, if_neg (fun hh => hj hh.2)]
    · rw [if_neg hc]
      symm
      exact Finset.sum_eq_zero (fun j _ => if_neg (fun hh => hc hh.1))
  rw [Finset.sum_congr rfl (fun i _ => h1 i), Finset.sum_comm, Finset.card_filter]
  refine Finset.sum_congr rfl (fun j _ => ?_)
  by_cases hj : f j ≤ T
  · rw [if_pos hj]
    rw [Finset.sum_eq_single (⟨f j, by omega⟩ : Fin N)]
    · rw [if_pos ⟨hj, rfl⟩]
    · intro b _ hb
      rw [if_neg]
      rintro ⟨_, h2⟩
      exact hb (Fin.ext h2.symm)
    · intro hne
      exact absurd (Finset.mem_univ _) hne
  · rw [if_neg hj]
    refine Finset.sum_eq_zero (fun i _ => if_neg ?_)
    rintro ⟨h2, h3⟩
    omega

/-- A sum of words that each hold a natural number holds the sum of the numbers (the words form a ring that the
    natural numbers map into). -/
private theorem sum_ofNat {ι : Type} (S : Finset ι) (g : ι → ℕ) :
    ∑ i ∈ S, BitVec.ofNat 32 (g i) = BitVec.ofNat 32 (∑ i ∈ S, g i) := by
  classical
  induction S using Finset.induction_on with
  | empty => rfl
  | insert a S ha ih =>
    rw [Finset.sum_insert ha, Finset.sum_insert ha, ih, BitVec.ofNat_add]

/-- Under admissible counts the rank of row `t` is the number of bags that start at or before it, less one. -/
theorem rank_eq (cnt : IVec S64 32) (h : Cert.Seg.Ok cnt) (t : Fin 131072) :
    rank cnt (ix1 t) = BitVec.ofNat 32 ((Finset.univ.filter fun j : Fin 64 => Cert.Seg.off cnt j.val ≤ t.val).card - 1) := by
  -- the rank is the inclusive prefix sum of the marks at the row, less the constant word one
  show IntOp.subi (Host.reduceWindow IntOp.addi ![131072] ![1] ![131071] ![0] (marks cnt) zeroInit
      reduceWindows_S131072_S131072_w131072s1p131071_0 h_S_ (ix1 t)) 1#32 = _
  rw [Cert.LibCumsum.cumsum_apply (N := 131072) (P := 131071) rfl (marks cnt) zeroInit
      reduceWindows_S131072_S131072_w131072s1p131071_0 h_S_ rfl t]
  -- each mark is the number of bags starting at its row; the sum of those words is the word of the sum of the numbers
  have hterm : ∀ i : Fin 131072, (if i.val ≤ t.val then marks cnt (ix1 i) else 0)
      = BitVec.ofNat 32 (if i.val ≤ t.val then (Finset.univ.filter fun j : Fin 64 => Cert.Seg.off cnt j.val = i.val).card else 0) := by
    intro i
    by_cases hc : i.val ≤ t.val
    · rw [if_pos hc, if_pos hc, marks_eq cnt h i]
    · rw [if_neg hc, if_neg hc]; rfl
  rw [Finset.sum_congr rfl (fun i _ => hterm i), sum_ofNat,
    sum_fiber_card (fun j : Fin 64 => Cert.Seg.off cnt j.val) t.val t.isLt]
  -- the count is at least one (the first bag starts at row 0) and at most 64, so subtracting one does not wrap
  have hpos := Cert.Seg.rank_pos cnt t.val
  have hle : (Finset.univ.filter fun j : Fin 64 => Cert.Seg.off cnt j.val ≤ t.val).card ≤ 64 := by
    have := Finset.card_le_univ (Finset.univ.filter fun j : Fin 64 => Cert.Seg.off cnt j.val ≤ t.val)
    simpa using this
  exact StableHlo.Predicate.sub_one_ofNat _ hpos (by omega)

/-- The one index of a vector at a place, in the two spellings in use. -/
private theorem ofFin_eq_ix1 {n : ℕ} (p : Fin n) : Shape.Idx.ofFin p = ix1 p := by
  funext d
  match d with
  | ⟨0, _⟩ => rfl

/-- A fold over the one-element index set combines that one term with the start. -/
private theorem fold_fin_one {α : Type} (op : α → α → α) [Std.Commutative op] [Std.Associative op] (b : α) (g : Fin 1 → α) :
    (Finset.univ : Finset (Fin 1)).fold op b g = op (g 0) b := by
  rw [show (Finset.univ : Finset (Fin 1)) = {0} from rfl]
  exact Finset.fold_singleton

/-- The same over an index set whose length is one by a stated equation. -/
private theorem fold_fin_of_eq_one {α : Type} (op : α → α → α) [Std.Commutative op] [Std.Associative op] (b : α) {m : ℕ} (hm : m = 1)
    (g : Fin m → α) : (Finset.univ : Finset (Fin m)).fold op b g = op (g ⟨0, by omega⟩) b := by
  subst hm
  exact fold_fin_one op b g

/-- … and the bag word of row `t` is that same number. -/
theorem segIds_eq (cnt : IVec S64 32) (h : Cert.Seg.Ok cnt) (t : Fin 131072) :
    segIds cnt (ix1 t) = BitVec.ofNat 32 ((Finset.univ.filter fun j : Fin 64 => Cert.Seg.off cnt j.val ≤ t.val).card - 1) := by
  have hpos := Cert.Seg.rank_pos cnt t.val
  have hle : (Finset.univ.filter fun j : Fin 64 => Cert.Seg.off cnt j.val ≤ t.val).card ≤ 64 := by
    have := Finset.card_le_univ (Finset.univ.filter fun j : Fin 64 => Cert.Seg.off cnt j.val ≤ t.val)
    simpa using this
  have hr := rank_eq cnt h t
  generalize (Finset.univ.filter fun j : Fin 64 => Cert.Seg.off cnt j.val ≤ t.val).card = n at hpos hle hr ⊢
  -- the rank is a word between 0 and 63
  have hrn : (rank cnt (ix1 t)).toNat = n - 1 := by
    rw [hr, BitVec.toNat_ofNat]
    exact Nat.mod_eq_of_lt (by omega)
  -- it is not negative, so the column of start indices holds it unchanged at the row
  have hcol : rankCol cnt (StableHlo.Predicate.ixP t) = rank cnt (ix1 t) := by
    unfold rankCol
    rw [StableHlo.Predicate.bcast_col1, ofFin_eq_ix1]
    show Scalar.select (IntOp.cmpi .slt (rank cnt (ix1 t)) 0#32) (IntOp.addi (rank cnt (ix1 t)) 64#32) (rank cnt (ix1 t)) = _
    have hneg : ¬ (IntOp.cmpi .slt (rank cnt (ix1 t)) 0#32 = 1) := by
      show ¬ (IntOp.cmpi .slt (rank cnt (ix1 t)) 0#32 = 1#1)
      rw [StableHlo.Predicate.slt_iff_toNat (by omega) (by decide)]
      show ¬ ((rank cnt (ix1 t)).toNat < 0)
      omega
    unfold Scalar.select
    rw [if_neg hneg]
  -- the two range tests, read at the row's one column entry
  have hmask : andi (cmpi .sge (rankCol cnt) (broadcastInDim S131072x1 ![] bcast_S_S131072x1 (constantI S_ 32 0#32)))
      (cmpi .sle (rankCol cnt)
        (broadcastInDim S131072x1 ![0, 1] bcast_S1x1_S131072x1_0_1
          (broadcastInDim S1x1 ![1] bcast_S1_S1x1_1 (constantI S1 32 63#32)))) (StableHlo.Predicate.ixP t) = 1#1 := by
    show IntOp.andi (IntOp.cmpi .sge (rankCol cnt (StableHlo.Predicate.ixP t)) 0#32)
      (IntOp.cmpi .sle (rankCol cnt (StableHlo.Predicate.ixP t)) 63#32) = 1#1
    rw [hcol, (StableHlo.Predicate.sge_iff_toNat (by omega) (by decide)).mpr (Nat.zero_le _),
      (StableHlo.Predicate.sle_iff_toNat (by omega) (by decide)).mpr (by rw [hrn]; show n - 1 ≤ 63; omega)]
    rfl
  -- the conjunction along the axis of length one is that entry's test and the initial one
  have hR : S131072x1.Reduces [1] S131072 := by decide
  have hlift : ∀ k : Fin (S131072x1.size 1), hR.lift (ix1 t) k = StableHlo.Predicate.ixP t := by
    intro k
    have hk : k.val = 0 := by
      have := k.isLt
      change k.val < 1 at this
      omega
    funext c
    match c with
    | ⟨0, _⟩ =>
      apply Fin.ext
      rw [Shape.Reduces.lift_val]
      unfold Shape.Reduces.liftVal
      have e1 : ¬ ((0 : ℕ) = 1) := by decide
      have e2 : (0 : ℕ) < 1 := by decide
      exact (dif_neg e1).trans (dif_pos e2)
    | ⟨1, _⟩ =>
      apply Fin.ext
      rw [Shape.Reduces.lift_val]
      unfold Shape.Reduces.liftVal
      exact (dif_pos (rfl : (1 : ℕ) = 1)).trans hk
  have htest : Host.reduce IntOp.andi
      (andi (cmpi .sge (rankCol cnt) (broadcastInDim S131072x1 ![] bcast_S_S131072x1 (constantI S_ 32 0#32)))
        (cmpi .sle (rankCol cnt)
          (broadcastInDim S131072x1 ![0, 1] bcast_S1x1_S131072x1_0_1
            (broadcastInDim S1x1 ![1] bcast_S1_S1x1_1 (constantI S1 32 63#32)))))
      (constantI S_ 1 1#1) reducesTo_S131072x1_S131072_d1 h_S_ (ix1 t) = 1#1 := by
    rw [Host.reduce_eq_fold_single IntOp.andi _ _ reducesTo_S131072x1_S131072_d1 hR h_S_ (ix1 t)]
    rw [fold_fin_of_eq_one IntOp.andi _ (rfl : S131072x1.size 1 = 1) _]
    simp only [Function.comp_apply]
    rw [hlift, hmask]
    rfl
  -- so the take's value is kept; the take reads the table `0 … 63` at the rank, clamped into it, which is the rank
  show Scalar.select
      (Host.reduce IntOp.andi
        (andi (cmpi .sge (rankCol cnt) (broadcastInDim S131072x1 ![] bcast_S_S131072x1 (constantI S_ 32 0#32)))
          (cmpi .sle (rankCol cnt)
            (broadcastInDim S131072x1 ![0, 1] bcast_S1x1_S131072x1_0_1
              (broadcastInDim S1x1 ![1] bcast_S1_S1x1_1 (constantI S1 32 63#32)))))
        (constantI S_ 1 1#1) reducesTo_S131072x1_S131072_d1 h_S_ (ix1 t))
      (Host.gather gather_S64_S131072x1_S131072_n_0_n_n_0_1_1 (iotaInDim S64 32 0) (rankCol cnt) (ix1 t))
      2147483648#32 = _
  rw [htest]
  unfold Scalar.select
  rw [if_pos (show (1#1 : BitVec 1) = 1 from rfl), ← ofFin_eq_ix1,
    StableHlo.Predicate.gather_take gather_S64_S131072x1_S131072_n_0_n_n_0_1_1 rfl rfl rfl rfl _ _ t (by decide),
    StableHlo.Predicate.iota_apply]
  refine congrArg (BitVec.ofNat 32) ?_
  show min (rankCol cnt (StableHlo.Predicate.ixP t)).toInt.toNat (64 - 1) = n - 1
  rw [hcol, StableHlo.Predicate.toInt_eq_toNat_of_lt (by omega), Int.toNat_natCast, hrn]
  omega

end Cert.ReferenceIdeal.Hand

end
-- ==== Proof.RefRead.lean ====
/-
  The reference's term is the segmented mean: under admissible counts the ranking finds, for each row, the bag that owns
  it, so the accumulating scatter adds exactly the owned rows into each bag.
-/
import proofs.«412226_j44435731644653_3_alg».proof.Proof.RefRank
import Idealize.ShloMosaic.PureOps.Ideal.Laws

noncomputable section

open scoped BigOperators

namespace Cert.ReferenceIdeal.Hand

open Idealize.ShloMosaic Idealize.ShloMosaic.ValueIdx Cert.ReferenceIdeal Cert.ReferenceIdeal.Facts₀

namespace RefRead

/-! ## Where an update of the accumulating scatter lands -/

/-- The accumulating scatter's dimension numbers: the operand's first axis is indexed by the start word, its second axis
    is the update's window axis. -/
abbrev SD : ScatterDims S64x512 S131072x1 S131072x512 := scatter_S64x512_S131072x1_S131072x512_1_0_0_1

/-- On the operand's first axis the window starts at the start word of the update's row, read signed. -/
theorem start0 (idx : IVec S131072x1 32) (t : Fin 131072) (d' : Fin 512) :
    SD.start (ix2 t d') idx 0 = (idx (ix2 t 0)).toInt := by
  unfold ScatterDims.start
  rw [dif_pos (show (0 : Fin 2) ∈ SD.scatterDimsToOperandDims from List.mem_singleton.mpr rfl)]
  congr 2
  funext b
  match b with
  | ⟨0, _⟩ => rfl
  | ⟨1, _⟩ => rfl

/-- The second axis is not start-indexed: the window starts at 0 there. -/
theorem start1 (idx : IVec S131072x1 32) (t : Fin 131072) (d' : Fin 512) :
    SD.start (ix2 t d') idx 1 = 0 := by
  unfold ScatterDims.start
  rw [dif_neg (show ¬ (1 : Fin 2) ∈ SD.scatterDimsToOperandDims by decide)]

/-- The first axis is an inserted one: no window coordinate there. -/
theorem window0 (t : Fin 131072) (d' : Fin 512) : SD.window (ix2 t d') 0 = 0 := by
  unfold ScatterDims.window
  rw [dif_neg (show ¬ (0 : Fin 2) ∈ SD.sKept by decide)]

/-- On the second axis the window coordinate is the update's column. -/
theorem window1 (t : Fin 131072) (d' : Fin 512) : SD.window (ix2 t d') 1 = d'.val := by
  unfold ScatterDims.window
  rw [dif_pos (show (1 : Fin 2) ∈ SD.sKept by decide)]
  rfl

/-- When the start word of row `t`, read signed, is the bag number `b`, the update at `(t, d')` lands at `(b, d')`. -/
theorem resultIdx_eq (idx : IVec S131072x1 32) (t : Fin 131072) (d' : Fin 512) (b : Fin 64)
    (hw : (idx (ix2 t 0)).toInt = (b.val : ℤ)) :
    SD.resultIdx? (ix2 t d') idx = some (ix2 b d') := by
  have hb := b.isLt
  have hd := d'.isLt
  have hall : ∀ a, 0 ≤ SD.start (ix2 t d') idx a + SD.window (ix2 t d') a
      ∧ SD.start (ix2 t d') idx a + SD.window (ix2 t d') a < S64x512.size a := by
    intro a
    match a with
    | ⟨0, _⟩ =>
      show 0 ≤ SD.start (ix2 t d') idx 0 + SD.window (ix2 t d') 0
        ∧ SD.start (ix2 t d') idx 0 + SD.window (ix2 t d') 0 < ((64 : ℕ) : ℤ)
      rw [start0, window0, hw]; omega
    | ⟨1, _⟩ =>
      show 0 ≤ SD.start (ix2 t d') idx 1 + SD.window (ix2 t d') 1
        ∧ SD.start (ix2 t d') idx 1 + SD.window (ix2 t d') 1 < ((512 : ℕ) : ℤ)
      rw [start1, window1]; omega
  unfold ScatterDims.resultIdx?
  rw [dif_pos hall]
  congr 1
  funext a
  apply Fin.ext
  match a with
  | ⟨0, _⟩ =>
    show (SD.start (ix2 t d') idx 0 + SD.window (ix2 t d') 0).toNat = b.val
    rw [start0, window0, hw]; omega
  | ⟨1, _⟩ =>
    show (SD.start (ix2 t d') idx 1 + SD.window (ix2 t d') 1).toNat = d'.val
    rw [start1, window1]; omega

/-- The accumulating scatter read at `(b, d)`, when every row's start word is a bag number `g t`: the operand's entry
    plus the sum of column `d` over the rows whose bag is `b`. An update `(t, d')` lands at `(g t, d')`, so among the
    updates of one row only the one in column `d` can land at `(b, d)`, and it does exactly when `g t = b`. -/
theorem scatterAdd_read (z : FVec Ideal S64x512 .f32) (idx : IVec S131072x1 32) (x : FVec Ideal S131072x512 .f32)
    (g : Fin 131072 → Fin 64) (hg : ∀ t, (idx (ix2 t 0)).toInt = ((g t).val : ℤ)) (b : Fin 64) (d : Fin 512) :
    Host.scatterAdd SD z idx x (ix2 b d) = z (ix2 b d) + ∑ t : Fin 131072, if g t = b then x (ix2 t d) else 0 := by
  show Ideal.hostScatterAdd SD z idx x (ix2 b d) = _
  unfold Ideal.hostScatterAdd
  refine congrArg (fun s => z (ix2 b d) + s) ?_
  rw [Finset.sum_filter, sum_idx2]
  apply Finset.sum_congr rfl
  intro t _
  simp only [resultIdx_eq idx t _ (g t) (hg t)]
  by_cases hb : g t = b
  · rw [if_pos hb, Finset.sum_eq_single d]
    · rw [if_pos (by rw [hb])]
    · intro d' _ hne
      rw [if_neg]
      intro heq
      exact hne (congrFun (Option.some.inj heq) 1)
    · intro hnot
      exact absurd (Finset.mem_univ d) hnot
  · rw [if_neg hb]
    apply Finset.sum_eq_zero
    intro d' _
    rw [if_neg]
    intro heq
    exact hb (congrFun (Option.some.inj heq) 0)

/-! ## The broadcasts read at an index -/

/-- A vector over the rows laid as a one-column matrix reads, at row `t`, the vector at `t`. -/
theorem rowsCol_read {α : Type} (v : S131072.Idx → α) (t : Fin 131072) :
    broadcastInDim S131072x1 ![0] bcast_S131072_S131072x1_0 v (ix2 t 0) = v (ix1 t) := by
  simp only [broadcastInDim]
  congr 1
  funext a
  match a with
  | ⟨0, _⟩ =>
    apply Fin.ext
    split
    · next h1 => change (131072 : ℕ) = 1 at h1; omega
    · rfl

/-- A vector over the bags laid as a one-column matrix reads, at bag `b`, the vector at `b`. -/
theorem bagsCol_read {α : Type} (v : S64.Idx → α) (b : Fin 64) :
    broadcastInDim S64x1 ![0] bcast_S64_S64x1_0 v (ix2 b 0) = v (ix1 b) := by
  simp only [broadcastInDim]
  congr 1
  funext a
  match a with
  | ⟨0, _⟩ =>
    apply Fin.ext
    split
    · next h1 => change (64 : ℕ) = 1 at h1; omega
    · rfl

/-- A one-column matrix over the bags stretched along the columns reads, at `(b, d)`, its entry at `(b, 0)`. -/
theorem bagsWide_read {α : Type} (v : S64x1.Idx → α) (b : Fin 64) (d : Fin 512) :
    broadcastInDim S64x512 ![0, 1] bcast_S64x1_S64x512_0_1 v (ix2 b d) = v (ix2 b 0) := by
  simp only [broadcastInDim]
  congr 1
  funext a
  match a with
  | ⟨0, _⟩ =>
    apply Fin.ext
    split
    · next h1 => change (64 : ℕ) = 1 at h1; omega
    · rfl
  | ⟨1, _⟩ =>
    apply Fin.ext
    split
    · rfl
    · next h1 => exact absurd rfl h1

/-- The divisor at `(b, d)`: bag `b`'s count, read signed, as a real number. -/
theorem den_read (cnt : IVec S64 32) (b : Fin 64) (d : Fin 512) :
    broadcastInDim S64x512 ![0, 1] bcast_S64x1_S64x512_0_1
      (sitofp (F := Ideal) .f32 (broadcastInDim S64x1 ![0] bcast_S64_S64x1_0 cnt)) (ix2 b d)
      = (((cnt (ix1 b)).toInt : ℝ) : EReal) := by
  rw [bagsWide_read, sitofp_apply, bagsCol_read]
  rfl

/-! ## Each row's bag -/

/-- The number of bags that start at or before row `t`. -/
def nb (cnt : IVec S64 32) (t : ℕ) : ℕ := (Finset.univ.filter fun j : Fin 64 => Cert.Seg.off cnt j.val ≤ t).card

/-- Bag 0 starts at row 0, so the number is at least one. -/
theorem nb_pos (cnt : IVec S64 32) (t : ℕ) : 0 < nb cnt t := Cert.Seg.rank_pos cnt t

/-- There are 64 bags in all. -/
theorem nb_le (cnt : IVec S64 32) (t : ℕ) : nb cnt t ≤ 64 :=
  (Finset.card_le_univ _).trans_eq (Fintype.card_fin 64)

/-- The bag the ranking gives row `t`: that number less one. -/
def bagOf (cnt : IVec S64 32) (t : Fin 131072) : Fin 64 :=
  ⟨nb cnt t.val - 1, by have := nb_pos cnt t.val; have := nb_le cnt t.val; omega⟩

/-- The ranking gives row `t` the bag `b` exactly when `b + 1` bags start at or before `t`. -/
theorem bagOf_eq_iff (cnt : IVec S64 32) (t : Fin 131072) (b : Fin 64) : bagOf cnt t = b ↔ nb cnt t.val = b.val + 1 := by
  have := nb_pos cnt t.val
  rw [Fin.ext_iff]
  show nb cnt t.val - 1 = b.val ↔ _
  omega

/-- Under admissible counts the start word of row `t`, read signed, is the bag the ranking gives it: the word is below 64,
    far below 2 ^ 31, so reading it signed changes nothing. -/
theorem startWord (cnt : IVec S64 32) (h : Cert.Seg.Ok cnt) (t : Fin 131072) :
    (broadcastInDim S131072x1 ![0] bcast_S131072_S131072x1_0 (segIds cnt) (ix2 t 0)).toInt = ((bagOf cnt t).val : ℤ) := by
  rw [rowsCol_read, segIds_eq cnt h t]
  have := nb_le cnt t.val
  exact StableHlo.Predicate.toInt_ofNat_small _ (by show nb cnt t.val - 1 < 2 ^ 31; omega)

/-! ## The bags' sums and the result -/

/-- Under admissible counts the bags' sums at `(b, d)` are the sum of column `d` over the rows that have `b + 1` bags
    starting at or before them: the scatter's operand is the zero constant, and each row is added into its bag. -/
theorem sums_read (x : FVec Ideal S131072x512 .f32) (cnt : IVec S64 32) (h : Cert.Seg.Ok cnt) (b : Fin 64) (d : Fin 512) :
    sums (F := Ideal) x cnt (ix2 b d) = ∑ t : Fin 131072, if nb cnt t.val = b.val + 1 then x (ix2 t d) else 0 := by
  unfold sums
  rw [scatterAdd_read _ _ x (bagOf cnt) (startWord cnt h) b d]
  have hz : broadcastInDim S64x512 ![] bcast_S_S64x512 (constant (F := Ideal) S_ .f32 0x00000000#32) (ix2 b d) = 0 := by
    simp only [broadcastInDim]
    rw [constant_apply, Ideal.ofBits_zero_f32]
  rw [hz, zero_add]
  apply Finset.sum_congr rfl
  intro t _
  by_cases hb : bagOf cnt t = b
  · rw [if_pos hb, if_pos ((bagOf_eq_iff cnt t b).mp hb)]
  · rw [if_neg hb, if_neg (fun hc => hb ((bagOf_eq_iff cnt t b).mpr hc))]

/-- The host's quotient at an index is the quotient of the entries. -/
theorem hostDivf_read {s : Shape} {φ : FTy} (a c : FVec Ideal s φ) (i : s.Idx) :
    Host.divf a c i = Ideal.div (a i) (c i) := rfl

end RefRead

open RefRead in
theorem refVal_eq (x : FVec Ideal S131072x512 .f32) (cnt : IVec S64 32) (h : Cert.Seg.Ok cnt) :
    refVal (F := Ideal) x cnt = Cert.Seg.G x cnt := by
  funext j
  obtain ⟨b, d, rfl⟩ : ∃ b d, j = ix2 b d := ⟨j 0, j 1, eq_ix2 j⟩
  unfold refVal
  rw [hostDivf_read, den_read, sums_read x cnt h]
  have hG : Cert.Seg.G x cnt (ix2 b d)
      = Ideal.div (∑ t : Fin 131072, if Cert.Seg.owns cnt b.val t.val then x (ix2 t d) else 0)
          (((cnt (ix1 b)).toInt : ℝ) : EReal) := rfl
  rw [hG]
  refine congrArg (fun s => Ideal.div s (((cnt (ix1 b)).toInt : ℝ) : EReal)) ?_
  apply Finset.sum_congr rfl
  intro t _
  -- `b + 1` bags start at or before row `t` exactly when bag `b` owns it
  have hiff : nb cnt t.val = b.val + 1 ↔ Cert.Seg.owns cnt b.val t.val := Cert.Seg.rank_eq_iff h t b
  by_cases ho : Cert.Seg.owns cnt b.val t.val
  · rw [if_pos (hiff.mpr ho), if_pos ho]
  · rw [if_neg (fun hc => ho (hiff.mp hc)), if_neg ho]

end Cert.ReferenceIdeal.Hand

end
-- ==== Proof.lean ====
/-
  A segmented mean over 64 consecutive bags of the 131072 rows of a [131072, 512] matrix, computed two ways.

  The kernel program finds each bag's boundary rows by a prefix sum of the counts, and for each half of the rows adds up,
  tile by tile, the products of a row's membership weight in a bag (one when the row number lies between the bag's two
  boundaries, else zero) with the row; the two halves are added and divided by the counts. The reference finds each row's
  bag by ranking (marking the bags' first rows, taking a prefix sum of the marks) and adds every row into its bag, then
  divides by the counts. Under counts that are non-negative, at most 131072 each and 131072 together — so that the bags
  tile the rows — both are the segmented mean `Cert.Seg.G`: the kernel's weight is the indicator that the bag owns the row,
  the reference's rank is the owning bag, and a sum of extended reals may be taken in any order and grouping.

  The frames of the two kernel programs are the generated ones; the reference's frame is its run with the result dropped;
  the idealization rewrote nothing.
-/
import proofs.«412226_j44435731644653_3_alg».proof.Defs
import proofs.«412226_j44435731644653_3_alg».proof.Proof.Gen.Kernel
import proofs.«412226_j44435731644653_3_alg».proof.Proof.Gen.Kernel.Frame
import proofs.«412226_j44435731644653_3_alg».proof.Proof.Gen.KernelIdeal
import proofs.«412226_j44435731644653_3_alg».proof.Proof.Gen.KernelIdeal.Frame
import proofs.«412226_j44435731644653_3_alg».proof.Proof.Gen.ReferenceIdeal
import proofs.«412226_j44435731644653_3_alg».proof.Proof.Gen.Pre_finite_inputs
import proofs.«412226_j44435731644653_3_alg».proof.Proof.Pre
import proofs.«412226_j44435731644653_3_alg».proof.Proof.KerRun
import proofs.«412226_j44435731644653_3_alg».proof.Proof.KerRead
import proofs.«412226_j44435731644653_3_alg».proof.Proof.RefRun
import proofs.«412226_j44435731644653_3_alg».proof.Proof.RefRead
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result's value dropped. -/
theorem frame_ri : Cert.frame_ReferenceIdeal := fun m ρ _ =>
  (θ_run Cert.ReferenceIdeal.defs _ _).mono (fun _ h c => (h c).2) (Cert.ReferenceIdeal.Hand.run (F := Ideal) m ρ)

/-- Both programs end at the segmented mean of the (agreeing) arguments: the precondition makes the counts admissible. -/
theorem algebraic : Cert.algebraic_KernelIdeal_ReferenceIdeal := by
  intro m ρ m' ρ' hpre hagree
  refine ⟨fun c => Cert.Seg.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun _ h c => ⟨(h c).1.trans (Cert.KernelIdeal.Hand.kerVal_eq _ _ (Cert.Seg.ok_of_pre _ _ (hpre c))), (h c).2⟩)
      (Cert.KernelIdeal.Hand.run m ρ)
  · refine (θ_run Cert.ReferenceIdeal.defs _ _).mono (fun _ h c => ⟨(h c).1.trans ?_, (h c).2⟩)
      (Cert.ReferenceIdeal.Hand.run (F := Ideal) m' ρ')
    rw [(hagree c).1, (hagree c).2]
    exact Cert.ReferenceIdeal.Hand.refVal_eq _ _ (Cert.Seg.ok_of_pre _ _ (hpre c))

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
